-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S1000x128 : Shape := ⟨2, ![1000, 128]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_

variable [Facts]

def fn {F : FTy → Type} [FloatOps F] (main_arg0 : FVec F S1024x64 .f32) (main_arg1 : FVec F S1000x128 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S1000x128 .f32 := Host.absf main_arg1
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  main_v8
-- ==== Kernel.lean ====
abbrev S1024x64 : Shape := ⟨2, ![1024, 64]⟩
abbrev S1000x128 : Shape := ⟨2, ![1000, 128]⟩
abbrev S1024x1000 : Shape := ⟨2, ![1024, 1000]⟩
abbrev S512x64 : Shape := ⟨2, ![512, 64]⟩
abbrev S512x1000 : Shape := ⟨2, ![512, 1000]⟩
abbrev S64x1000 : Shape := ⟨2, ![64, 1000]⟩
abbrev S1x1000 : Shape := ⟨2, ![1, 1000]⟩
abbrev S1000x64 : Shape := ⟨2, ![1000, 64]⟩
abbrev S1000 : Shape := ⟨1, ![1000]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S1024x64, .f32⟩
  | .hbm, ⟨1, _⟩ => ⟨S1000x128, .f32⟩
  | .hbm, ⟨2, _⟩ => ⟨S1024x1000, .f32⟩
  | .local _ .vmem, ⟨0, _⟩ => ⟨S512x64, .f32⟩
  | .local _ .vmem, ⟨1, _⟩ => ⟨S512x64, .f32⟩
  | .local _ .vmem, ⟨2, _⟩ => ⟨S1000x128, .f32⟩
  | .local _ .vmem, ⟨3, _⟩ => ⟨S512x1000, .f32⟩
  | .local _ .vmem, ⟨4, _⟩ => ⟨S512x1000, .f32⟩
  | .local _ .vmem, ⟨5, _⟩ => ⟨S64x1000, .bf16⟩
  | .local _ .vmem, ⟨6, _⟩ => ⟨S64x1000, .bf16⟩
  | .local _ .vmem, ⟨7, _⟩ => ⟨S1x1000, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1000x128_S1000x128_0_0 : ∀ a, (![0, 0] : Fin 2 → Nat) a + S1000x128.size a ≤ S1000x128.size a
  h_S1000x128 : 0 < S1000x128.numel
  slices_S1000x128_o0_0_S1000x64 : S1000x128.Slices ![0, 0] S1000x64
  slices_S1000x128_o0_64_S1000x64 : S1000x128.Slices ![0, 64] S1000x64
  reduces_S1000x64_S1000 : S1000x64.Reduces [1] S1000
  transposes_S1000x64_p1_0_S64x1000 : S1000x64.Transposes [1, 0] S64x1000
  bitsLt_bf16_f32 : FTy.bits .bf16 < FTy.bits .f32
  inb_S64x1000_S64x1000_0_0 : ∀ a, (![0, 0] : Fin 2 → Nat) a + S64x1000.size a ≤ S64x1000.size a
  h_S64x1000 : 0 < S64x1000.numel
  shapeCasts_S64x1000_S64x1000 : S64x1000.ShapeCasts S64x1000
  packedbf16_S64x1000_S64x1000_0_0 : (Rect.unit (s := S64x1000) ![0, 0] S64x1000.size inb_S64x1000_S64x1000_0_0).PackedRows (EltTy.packing .bf16)
  shapeCasts_S1000_S1x1000 : S1000.ShapeCasts S1x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  inb_S512x64_S512x64_0_0 : ∀ a, (![0, 0] : Fin 2 → Nat) a + S512x64.size a ≤ S512x64.size a
  h_S512x64 : 0 < S512x64.numel
  reduces_S512x64_S512 : S512x64.Reduces [1] S512
  shapeCasts_S512_S512x1 : S512.ShapeCasts S512x1
  broadcasts_S512x1_S512x1000 : S512x1.Broadcasts S512x1000
  broadcasts_S1x1000_S512x1000 : S1x1000.Broadcasts S512x1000
  inb_S512x1000_S512x1000_0_0 : ∀ a, (![0, 0] : Fin 2 → Nat) a + S512x1000.size a ≤ S512x1000.size a
  h_S512x1000 : 0 < S512x1000.numel
  dot_S512x64_S64x1000_S512x1000_1_0_0_1_n_n_wf : DotDims.WF S512x64 S64x1000 S512x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S1024x64.size a
  hwx0_0 : ∀ i : grid0.Coords, EltTy.bits .f32 = 32 ∨ (Rect.block (s := S1024x64) S512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S1000x128.size a
  hwx0_1 : ∀ i : grid0.Coords, EltTy.bits .f32 = 32 ∨ (Rect.block (s := S1000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1000.size a ≤ S1024x1000.size a
  hwx0_2 : ∀ i : grid0.Coords, EltTy.bits .f32 = 32 ∨ (Rect.block (s := S1024x1000) S512x1000.size (cc0_transform_2 i) (hinb0_2 i)).WholeWords (EltTy.packing .f32)

variable [Facts₀]

def dot_S512x64_S64x1000_S512x1000_1_0_0_1_n_n : DotDims S512x64 S64x1000 S512x1000 where
  lhsContracting := [1]
  rhsContracting := [0]
  lhsNonContracting := [0]
  rhsNonContracting := [1]
  lhsBatch := []
  rhsBatch := []
  wf := dot_S512x64_S64x1000_S512x1000_1_0_0_1_n_n_wf

abbrev win0_0 : Pipeline.Window sig grid0 :=
  Pipeline.Window.ofSpec (Memref.whole main_arg0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x64 : Shape := ⟨2, ![1024, 64]⟩
abbrev S1000x128 : Shape := ⟨2, ![1000, 128]⟩
abbrev S1000 : Shape := ⟨1, ![1000]⟩
abbrev S1x1000 : Shape := ⟨2, ![1, 1000]⟩
abbrev S1024x1000 : Shape := ⟨2, ![1024, 1000]⟩
abbrev S1024000 : Shape := ⟨1, ![1024000]⟩
abbrev S1024x1x64 : Shape := ⟨3, ![1024, 1, 64]⟩
abbrev S1024x1x1000x64 : Shape := ⟨4, ![1024, 1, 1000, 64]⟩
abbrev S1024x1000x64 : Shape := ⟨3, ![1024, 1000, 64]⟩
abbrev S1024000x64 : Shape := ⟨2, ![1024000, 64]⟩
abbrev S_ : Shape := ⟨0, ![]⟩
abbrev S1024000x1 : Shape := ⟨2, ![1024000, 1]⟩
abbrev S1 : Shape := ⟨1, ![1]⟩
abbrev S1x1 : Shape := ⟨2, ![1, 1]⟩
abbrev S1024000x128 : Shape := ⟨2, ![1024000, 128]⟩

abbrev nBuf : Space → Nat
  | .hbm => 55
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S1000x128, .f32⟩
  | .hbm, ⟨2, _⟩ => ⟨S1000, .i32⟩
  | .hbm, ⟨3, _⟩ => ⟨S1x1000, .i32⟩
  | .hbm, ⟨4, _⟩ => ⟨S1024x1000, .i32⟩
  | .hbm, ⟨5, _⟩ => ⟨S1024000, .i32⟩
  | .hbm, ⟨6, _⟩ => ⟨S1024x1x64, .f32⟩
  | .hbm, ⟨7, _⟩ => ⟨S1024x1x1000x64, .f32⟩
  | .hbm, ⟨8, _⟩ => ⟨S1024x1000x64, .f32⟩
  | .hbm, ⟨9, _⟩ => ⟨S1024000x64, .f32⟩
  | .hbm, ⟨10, _⟩ => ⟨S_, .i32⟩
  | .hbm, ⟨11, _⟩ => ⟨S1024000, .i32⟩
  | .hbm, ⟨12, _⟩ => ⟨S1024000, .i1⟩
  | .hbm, ⟨13, _⟩ => ⟨S_, .i32⟩
  | .hbm, ⟨14, _⟩ => ⟨S1024000, .i32⟩
  | .hbm, ⟨15, _⟩ => ⟨S1024000, .i32⟩
  | .hbm, ⟨16, _⟩ => ⟨S1024000, .i32⟩
  | .hbm, ⟨17, _⟩ => ⟨S1024000x1, .i32⟩
  | .hbm, ⟨18, _⟩ => ⟨S1, .i32⟩
  | .hbm, ⟨19, _⟩ => ⟨S_, .i32⟩
  | .hbm, ⟨20, _⟩ => ⟨S1024000x1, .i32⟩
  | .hbm, ⟨21, _⟩ => ⟨S1024000x1, .i1⟩
  | .hbm, ⟨22, _⟩ => ⟨S1x1, .i32⟩
  | .hbm, ⟨23, _⟩ => ⟨S1024000x1, .i32⟩
  | .hbm, ⟨24, _⟩ => ⟨S1024000x1, .i1⟩
  | .hbm, ⟨25, _⟩ => ⟨S1024000x1, .i1⟩
  | .hbm, ⟨26, _⟩ => ⟨S_, .i1⟩
  | .hbm, ⟨27, _⟩ => ⟨S1024000, .i1⟩
  | .hbm, ⟨28, _⟩ => ⟨S1024000x128, .f32⟩
  | .hbm, ⟨29, _⟩ => ⟨S1024000x128, .i1⟩
  | .hbm, ⟨30, _⟩ => ⟨S_, .f32⟩
  | .hbm, ⟨31, _⟩ => ⟨S1024000x128, .f32⟩
  | .hbm, ⟨32, _⟩ => ⟨S1024000x128, .f32⟩
  | .hbm, ⟨33, _⟩ => ⟨S1024000x64, .f32⟩
  | .hbm, ⟨34, _⟩ => ⟨S1024000x64, .f32⟩
  | .hbm, ⟨35, _⟩ => ⟨S_, .f32⟩
  | .hbm, ⟨36, _⟩ => ⟨S1024000x64, .f32⟩
  | .hbm, ⟨37, _⟩ => ⟨S1024000x64, .f32⟩
  | .hbm, ⟨38, _⟩ => ⟨S_, .f32⟩
  | .hbm, ⟨39, _⟩ => ⟨S1024000x64, .f32⟩
  | .hbm, ⟨40, _⟩ => ⟨S1024000x64, .f32⟩
  | .hbm, ⟨41, _⟩ => ⟨S1024000x64, .f32⟩
  | .hbm, ⟨42, _⟩ => ⟨S1024000x64, .f32⟩
  | .hbm, ⟨43, _⟩ => ⟨S_, .f32⟩
  | .hbm, ⟨44, _⟩ => ⟨S1024000x64, .f32⟩
  | .hbm, ⟨45, _⟩ => ⟨S1024000x64, .f32⟩
  | .hbm, ⟨46, _⟩ => ⟨S1024000x64, .f32⟩
  | .hbm, ⟨47, _⟩ => ⟨S1024000x64, .f32⟩
  | .hbm, ⟨48, _⟩ => ⟨S1024000x64, .f32⟩
  | .hbm, ⟨49, _⟩ => ⟨S_, .f32⟩
  | .hbm, ⟨50, _⟩ => ⟨S1024000x64, .f32⟩
  | .hbm, ⟨51, _⟩ => ⟨S1024000x64, .f32⟩
  | .hbm, ⟨52, _⟩ => ⟨S_, .f32⟩
  | .hbm, ⟨53, _⟩ => ⟨S1024000, .f32⟩
  | .hbm, ⟨54, _⟩ => ⟨S1024x1000, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_cst_0 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst_1 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_2 : Ref sig .tc := ⟨.hbm, 49, rfl⟩
abbrev main_v22 : Ref sig .tc := ⟨.hbm, 50, rfl⟩
abbrev main_v23 : Ref sig .tc := ⟨.hbm, 51, rfl⟩
abbrev main_cst_3 : Ref sig .tc := ⟨.hbm, 52, rfl⟩
abbrev main_v24 : Ref sig .tc := ⟨.hbm, 53, rfl⟩
abbrev main_v25 : Ref sig .tc := ⟨.hbm, 54, rfl⟩

abbrev nD : Nat := 1
abbrev τ : Topo := Topo.v7x

variable {F : FTy → Type} [FloatOps F]

class Facts₀ : Prop where
  shapeCasts_S1000_S1x1000 : S1000.ShapeCasts S1x1000
  bcast_S1x1000_S1024x1000_0_1 : S1x1000.BroadcastsInDim S1024x1000 (![0, 1] : Fin 2 → Fin S1024x1000.rank)
  shapeCasts_S1024x1000_S1024000 : S1024x1000.ShapeCasts S1024000
  bcast_S1024x64_S1024x1x64_0_2 : S1024x64.BroadcastsInDim S1024x1x64 (![0, 2] : Fin 2 → Fin S1024x1x64.rank)
  bcast_S1024x1x64_S1024x1x1000x64_0_1_3 : S1024x1x64.BroadcastsInDim S1024x1x1000x64 (![0, 1, 3] : Fin 3 → Fin S1024x1x1000x64.rank)
  shapeCasts_S1024x1x1000x64_S1024x1000x64 : S1024x1x1000x64.ShapeCasts S1024x1000x64
  shapeCasts_S1024x1000x64_S1024000x64 : S1024x1000x64.ShapeCasts S1024000x64
  bcast_S_S1024000 : S_.BroadcastsInDim S1024000 (![] : Fin 0 → Fin S1024000.rank)
  bcast_S1024000_S1024000x1_0 : S1024000.BroadcastsInDim S1024000x1 (![0] : Fin 1 → Fin S1024000x1.rank)
  bcast_S_S1024000x1 : S_.BroadcastsInDim S1024000x1 (![] : Fin 0 → Fin S1024000x1.rank)
  bcast_S1_S1x1_1 : S1.BroadcastsInDim S1x1 (![1] : Fin 1 → Fin S1x1.rank)
  bcast_S1x1_S1024000x1_0_1 : S1x1.BroadcastsInDim S1024000x1 (![0, 1] : Fin 2 → Fin S1024000x1.rank)
  reducesTo_S1024000x1_S1024000_d1 : S1024000x1.ReducesTo [1] S1024000
  h_S_ : 0 < S_.numel
  bcast_S1024000_S1024000x128_0 : S1024000.BroadcastsInDim S1024000x128 (![0] : Fin 1 → Fin S1024000x128.rank)
  bcast_S_S1024000x128 : S_.BroadcastsInDim S1024000x128 (![] : Fin 0 → Fin S1024000x128.rank)
  slices_S1024000x128_S1024000x64_0_0 : S1024000x128.Slices ![0, 0] S1024000x64
  slices_S1024000x128_S1024000x64_0_64 : S1024000x128.Slices ![0, 64] S1024000x64
  bcast_S_S1024000x64 : S_.BroadcastsInDim S1024000x64 (![] : Fin 0 → Fin S1024000x64.rank)
  reducesTo_S1024000x64_S1024000_d1 : S1024000x64.ReducesTo [1] S1024000
  shapeCasts_S1024000_S1024x1000 : S1024000.ShapeCasts S1024x1000
  gather_S1000x128_S1024000x1_S1024000x128_1_0_n_n_0_1_1128_wf : GatherDims.WF S1000x128 S1024000x1 S1024000x128 [1] [0] [] [0] [] 1 ![1, 128]

variable [Facts₀]

def gather_S1000x128_S1024000x1_S1024000x128_1_0_n_n_0_1_1128 : GatherDims S1000x128 S1024000x1 S1024000x128 where
  offsetDims := [1]
  collapsedSliceDims := [0]
  operandBatchingDims := []
  startIndicesBatchingDims := []
  startIndexMap := [0]
  indexVectorDim := 1
  sliceSizes := ![1, 128]
  wf := gather_S1000x128_S1024000x1_S1024000x128_1_0_n_n_0_1_1128_wf

class Facts : Prop extends Facts₀ where

variable [Facts]
-- ==== Proof.KernelPieces.lean ====
/-
  What one run of the kernel body leaves behind, as the body's own arithmetic. At the grid's first point the
  body first fills the three per-class tables from the class table block (two 64 × 1000 contraction tables
  and the 1 × 1000 constant row) and then computes its output block from the batch block and the tables it
  has just stored; at every later point it computes the output block from the batch block and the tables the
  point before left. Each stored piece covers its buffer whole, so reading the pieces back gives the stored
  value itself.
-/
import proofs.«180006_g45595372814773_cont_8to1_c_604_6_alg».proof.Proof.Gen.KernelIdeal.Frame
import Idealize.ShloMosaic.Lib.Pipeline.Value

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

/-- Every store and load of the body starts at the origin of its buffer: the offset pair (0, 0) is the zero offset. -/
private theorem origin : (![0, 0] : Fin 2 → Nat) = fun _ => 0 := funext fun a => by fin_cases a <;> rfl

/-- First point: the first contraction table is the body's table term of the class block. -/
theorem sout_A_0 (c : Dev nD) (i : grid0.Coords) (arg1 : Memref sig .tc .vmem S512x64 .f32) (harg1 : arg1.IsWhole) (arg2 : Memref sig .tc .vmem S1000x128 .f32) (harg2 : arg2.IsWhole) (arg3 : Memref sig .tc .vmem S512x1000 .f32) (harg3 : arg3.IsWhole) (arg4 : Memref sig .tc .vmem S64x1000 .bf16) (harg4 : arg4.IsWhole) (arg5 : Memref sig .tc .vmem S64x1000 .bf16) (harg5 : arg5.IsWhole) (arg6 : Memref sig .tc .vmem S1x1000 .f32) (harg6 : arg6.IsWhole) (hc0 : cond0_0 i)
    (x0 : Vec F S512x64 .f32) (x1 : Vec F S1000x128 .f32) :
    sout0_A_0 c i arg1 harg1 arg2 harg2 arg3 harg3 arg4 harg4 arg5 harg5 arg6 harg6 hc0 x0 x1 = k0_pay5 x1 := by
  unfold sout0_A_0
  rw [View.read_writes_eq_canon _ _ _ (scover0_A_0 c i arg1 harg1 arg2 harg2 arg3 harg3 arg4 harg4 arg5 harg5 arg6 harg6 hc0 x0 x1)]
  unfold kernelRun0_A
  dsimp only
  sl_unfold_words
  -- one store over the whole table, whose payload reads the whole class block
  rw [View.canon_unit_zero (S := S64x1000) origin]
  simp only [View.readAt_eq_ld, harg2.read_unread, View.ld_unit_zero (S := S1000x128) origin]

/-- First point: the second contraction table. -/
theorem sout_A_1 (c : Dev nD) (i : grid0.Coords) (arg1 : Memref sig .tc .vmem S512x64 .f32) (harg1 : arg1.IsWhole) (arg2 : Memref sig .tc .vmem S1000x128 .f32) (harg2 : arg2.IsWhole) (arg3 : Memref sig .tc .vmem S512x1000 .f32) (harg3 : arg3.IsWhole) (arg4 : Memref sig .tc .vmem S64x1000 .bf16) (harg4 : arg4.IsWhole) (arg5 : Memref sig .tc .vmem S64x1000 .bf16) (harg5 : arg5.IsWhole) (arg6 : Memref sig .tc .vmem S1x1000 .f32) (harg6 : arg6.IsWhole) (hc0 : cond0_0 i)
    (x0 : Vec F S512x64 .f32) (x1 : Vec F S1000x128 .f32) :
    sout0_A_1 c i arg1 harg1 arg2 harg2 arg3 harg3 arg4 harg4 arg5 harg5 arg6 harg6 hc0 x0 x1 = k0_pay6 x1 := by
  unfold sout0_A_1
  rw [View.read_writes_eq_canon _ _ _ (scover0_A_1 c i arg1 harg1 arg2 harg2 arg3 harg3 arg4 harg4 arg5 harg5 arg6 harg6 hc0 x0 x1)]
  unfold kernelRun0_A
  dsimp only
  sl_unfold_words
  -- one store over the whole table, whose payload reads the whole class block
  rw [View.canon_unit_zero (S := S64x1000) origin]
  simp only [View.readAt_eq_ld, harg2.read_unread, View.ld_unit_zero (S := S1000x128) origin]

/-- First point: the per-class constant row. -/
theorem sout_A_2 (c : Dev nD) (i : grid0.Coords) (arg1 : Memref sig .tc .vmem S512x64 .f32) (harg1 : arg1.IsWhole) (arg2 : Memref sig .tc .vmem S1000x128 .f32) (harg2 : arg2.IsWhole) (arg3 : Memref sig .tc .vmem S512x1000 .f32) (harg3 : arg3.IsWhole) (arg4 : Memref sig .tc .vmem S64x1000 .bf16) (harg4 : arg4.IsWhole) (arg5 : Memref sig .tc .vmem S64x1000 .bf16) (harg5 : arg5.IsWhole) (arg6 : Memref sig .tc .vmem S1x1000 .f32) (harg6 : arg6.IsWhole) (hc0 : cond0_0 i)
    (x0 : Vec F S512x64 .f32) (x1 : Vec F S1000x128 .f32) :
    sout0_A_2 c i arg1 harg1 arg2 harg2 arg3 harg3 arg4 harg4 arg5 harg5 arg6 harg6 hc0 x0 x1 = k0_pay7 x1 := by
  unfold sout0_A_2
  rw [View.read_writes_eq_canon _ _ _ (scover0_A_2 c i arg1 harg1 arg2 harg2 arg3 harg3 arg4 harg4 arg5 harg5 arg6 harg6 hc0 x0 x1)]
  unfold kernelRun0_A
  dsimp only
  sl_unfold_words
  -- one store over the whole row, whose payload reads the whole class block
  rw [View.canon_unit_zero (S := S1x1000) origin]
  simp only [View.readAt_eq_ld, harg2.read_unread, View.ld_unit_zero (S := S1000x128) origin]

/-- First point: the output block, from the batch block and the tables just stored. -/
theorem out_A_2 (c : Dev nD) (i : grid0.Coords) (arg1 : Memref sig .tc .vmem S512x64 .f32) (harg1 : arg1.IsWhole) (arg2 : Memref sig .tc .vmem S1000x128 .f32) (harg2 : arg2.IsWhole) (arg3 : Memref sig .tc .vmem S512x1000 .f32) (harg3 : arg3.IsWhole) (arg4 : Memref sig .tc .vmem S64x1000 .bf16) (harg4 : arg4.IsWhole) (arg5 : Memref sig .tc .vmem S64x1000 .bf16) (harg5 : arg5.IsWhole) (arg6 : Memref sig .tc .vmem S1x1000 .f32) (harg6 : arg6.IsWhole) (hc0 : cond0_0 i)
    (x0 : Vec F S512x64 .f32) (x1 : Vec F S1000x128 .f32) :
    out0_A_2 c i arg1 harg1 arg2 harg2 arg3 harg3 arg4 harg4 arg5 harg5 arg6 harg6 hc0 x0 x1 = k0_pay8 x0 (k0_pay5 x1) (k0_pay6 x1) (k0_pay7 x1) := by
  unfold out0_A_2
  rw [View.read_writes_eq_canon _ _ _ (cover0_A_2 c i arg1 harg1 arg2 harg2 arg3 harg3 arg4 harg4 arg5 harg5 arg6 harg6 hc0 x0 x1)]
  unfold kernelRun0_A
  dsimp only
  sl_unfold_words
  -- one store over the whole output block; each table it reads was stored whole just before, so the read gives
  -- back that store's payload
  rw [View.canon_unit_zero (S := S512x1000) origin]
  simp only [View.readAt_eq_ld, harg1.read_unread, harg2.read_unread, View.ld_unit_zero (S := S512x64) origin,
    View.ld_unit_zero (S := S1000x128) origin, View.readCov_unit_zero (S := S64x1000) _ origin,
    View.readCov_unit_zero (S := S1x1000) _ origin]

/-- Later points: the output block, from the batch block and the tables the point before left. -/
theorem out_B_2 (c : Dev nD) (i : grid0.Coords) (arg1 : Memref sig .tc .vmem S512x64 .f32) (harg1 : arg1.IsWhole) (arg2 : Memref sig .tc .vmem S1000x128 .f32) (harg2 : arg2.IsWhole) (arg3 : Memref sig .tc .vmem S512x1000 .f32) (harg3 : arg3.IsWhole) (arg4 : Memref sig .tc .vmem S64x1000 .bf16) (harg4 : arg4.IsWhole) (arg5 : Memref sig .tc .vmem S64x1000 .bf16) (harg5 : arg5.IsWhole) (arg6 : Memref sig .tc .vmem S1x1000 .f32) (harg6 : arg6.IsWhole) (hc0 : ¬cond0_0 i)
    (x0 : Vec F S512x64 .f32) (x1 : Vec F S1000x128 .f32) (xs0 : Vec F S64x1000 .bf16) (xs1 : Vec F S64x1000 .bf16) (xs2 : Vec F S1x1000 .f32) :
    out0_B_2 c i arg1 harg1 arg2 harg2 arg3 harg3 arg4 harg4 arg5 harg5 arg6 harg6 hc0 x0 x1 xs0 xs1 xs2 = k0_pay8 x0 xs0 xs1 xs2 := by
  unfold out0_B_2
  rw [View.read_writes_eq_canon _ _ _ (cover0_B_2 c i arg1 harg1 arg2 harg2 arg3 harg3 arg4 harg4 arg5 harg5 arg6 harg6 hc0 x0 x1 xs0 xs1 xs2)]
  unfold kernelRun0_B
  dsimp only
  sl_unfold_words
  -- one store over the whole output block; the tables are read whole as the point before left them
  rw [View.canon_unit_zero (S := S512x1000) origin]
  simp only [View.readAt_eq_ld, harg1.read_unread, harg4.read_unread, harg5.read_unread, harg6.read_unread,
    View.ld_unit_zero (S := S512x64) origin, View.ld_unit_zero (S := S64x1000) origin,
    View.ld_unit_zero (S := S1x1000) origin]

end Cert.KernelIdeal.Pieces

end
-- ==== Proof.Spec.lean ====
/-
  The function both programs compute, stated once over plain arrays of extended reals.

  A batch row `x[b, ·]` (64 features) is scored against each of 1000 classes. Class `c` has a mean
  `μ[c, d] = ce[c, d]` and a log standard deviation `s[c, d] = ce[c, 64 + d]`; with the precision weight
  `w[c, d] = exp (-2 · s[c, d])` the log-likelihood (up to the constant both sides share) is

      ref[b, c] = Σ_d  -½ · ( (L + 2·s[c, d]) + (x[b, d] - μ[c, d])² · w[c, d] ),

  where `L` is the single-precision word nearest `log 2π`. Expanding the square splits the sum into two
  contractions of `x²` and `x` against per-class tables, a per-row term and a per-class constant:

      ker[b, c] = ( Σ_d x²·A[d, c] + Σ_d x·B[d, c] ) + (-½ · Σ_d x²) + C[c],
      A[d, c] = -½ · (w[c, d] - 1),   B[d, c] = μ[c, d] · w[c, d],
      C[c]    = -½ · ( (K + 2 · Σ_d s[c, d]) + Σ_d μ[c, d] · (μ[c, d] · w[c, d]) ),

  with `K` the word whose exponent field is six above `L`'s, that is `K = 64 · L` exactly. The two agree on
  finite inputs (the expansion uses distributivity, which the extended reals only have away from the
  infinities). Every product and sum below is written in the order the programs perform it.
-/
import Idealize.ShloMosaic.PureOps.Ideal
import Idealize.ShloMosaic.Lib.ValueIdx

noncomputable section

namespace Cert.GaussMix

open Idealize.ShloMosaic Idealize.ShloMosaic.ValueIdx

/-- The batch `x`: 1024 rows of 64 features. -/
abbrev SX : Shape := ⟨2, ![1024, 64]⟩
/-- The class table: 1000 rows, the 64 means then the 64 log standard deviations. -/
abbrev SE : Shape := ⟨2, ![1000, 128]⟩
/-- The result: one score per batch row and class. -/
abbrev SO : Shape := ⟨2, ![1024, 1000]⟩

/-- Column `d` of the mean half of a class row. -/
abbrev colM (d : Fin 64) : Fin 128 := ⟨d.val, Nat.lt_of_lt_of_le d.isLt (by decide)⟩
/-- Column `d` of the log-standard-deviation half of a class row. -/
abbrev colS (d : Fin 64) : Fin 128 := ⟨64 + d.val, Nat.add_lt_add_left d.isLt 64⟩

/-- The float words the programs spell, as the extended reals they denote: -2, 2, -½, 1, and the two
    words for `log 2π` (`cL`) and sixty-four times it (`cK`). -/
abbrev cNeg2 : EReal := Ideal.ofBits .f32 0xC0000000#32
abbrev cTwo : EReal := Ideal.ofBits .f32 0x40000000#32
abbrev cNegHalf : EReal := Ideal.ofBits .f32 0xBF000000#32
abbrev cOne : EReal := Ideal.ofBits .f32 0x3F800000#32
abbrev cL : EReal := Ideal.ofBits .f32 0x3FEB3F8E#32
abbrev cK : EReal := Ideal.ofBits .f32 0x42EB3F8E#32

/-- `μ[c, d]`. -/
def mean (ce : SE.Idx → EReal) (c : Fin 1000) (d : Fin 64) : EReal := ce (ix2 c (colM d))
/-- `s[c, d]`. -/
def lsig (ce : SE.Idx → EReal) (c : Fin 1000) (d : Fin 64) : EReal := ce (ix2 c (colS d))
/-- `w[c, d] = exp (-2 · s[c, d])`. -/
def prec (ce : SE.Idx → EReal) (c : Fin 1000) (d : Fin 64) : EReal := Ideal.exp (cNeg2 * lsig ce c d)

/-- The reference's score of row `b` against class `c`. -/
def refVal (x : SX.Idx → EReal) (ce : SE.Idx → EReal) (b : Fin 1024) (c : Fin 1000) : EReal :=
  ∑ d : Fin 64, cNegHalf * ((cL + cTwo * lsig ce c d)
    + ((x (ix2 b d) - mean ce c d) * (x (ix2 b d) - mean ce c d)) * prec ce c d)

/-- `A[d, c]`. -/
def tabA (ce : SE.Idx → EReal) (d : Fin 64) (c : Fin 1000) : EReal := cNegHalf * (prec ce c d - cOne)
/-- `B[d, c]`. -/
def tabB (ce : SE.Idx → EReal) (d : Fin 64) (c : Fin 1000) : EReal := mean ce c d * prec ce c d
/-- `C[c]`. -/
def tabC (ce : SE.Idx → EReal) (c : Fin 1000) : EReal :=
  cNegHalf * ((cK + cTwo * ∑ d : Fin 64, lsig ce c d) + ∑ d : Fin 64, mean ce c d * (mean ce c d * prec ce c d))

/-- One output row from ANY tables `A`, `B`, `C`: the two contractions, the row term, the class constant. -/
def rowVal (xr : Fin 64 → EReal) (A B : Fin 64 → EReal) (C : EReal) : EReal :=
  (((∑ d : Fin 64, (xr d * xr d) * A d) + (∑ d : Fin 64, xr d * B d)) + cNegHalf * (∑ d : Fin 64, xr d * xr d)) + C

/-- The kernel's score of row `b` against class `c`. -/
def kerVal (x : SX.Idx → EReal) (ce : SE.Idx → EReal) (b : Fin 1024) (c : Fin 1000) : EReal :=
  rowVal (fun d => x (ix2 b d)) (fun d => tabA ce d c) (fun d => tabB ce d c) (tabC ce c)

/-- The reference's whole result array. -/
def refArr (x : SX.Idx → EReal) (ce : SE.Idx → EReal) : SO.Idx → EReal :=
  fun j => refVal x ce ⟨(j 0).val, idx2_lt0 j⟩ ⟨(j 1).val, idx2_lt1 j⟩

/-- The kernel's whole result array. -/
def kerArr (x : SX.Idx → EReal) (ce : SE.Idx → EReal) : SO.Idx → EReal :=
  fun j => kerVal x ce ⟨(j 0).val, idx2_lt0 j⟩ ⟨(j 1).val, idx2_lt1 j⟩

end Cert.GaussMix

end
-- ==== Proof.KernelPayload.lean ====
/-
  The kernel body's arithmetic read at an index, at the ideal values: the two contraction tables and the
  constant row are the specification's A, B and C of the class block, and the output block's entry (r, c) is
  the row formula of batch row r against column c of whatever tables it is given. A change of float format
  is the identity here, a lane sum and a matrix product into a zero accumulator are plain finite sums, and a
  transpose swaps the two coordinates.
-/
import proofs.«180006_g45595372814773_cont_8to1_c_604_6_alg».proof.Proof.Gen.KernelIdeal.Skeleton
import proofs.«180006_g45595372814773_cont_8to1_c_604_6_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.GaussMix

/-! ## The class block's two halves, the precisions, and the mean-times-precision products -/

/-- The mean half of the class block at (c, d) is the block at (c, d). -/
private theorem pay1_apply (v22 : Vec Ideal S1000x128 .f32) (c : Fin 1000) (d : Fin 64) :
    k0_pay1 (F := Ideal) v22 (ix2 c d) = mean v22 c d := by
  unfold k0_pay1
  exact slice2_axis1_apply 0 v22 _ c d (colM d) (Nat.zero_add _).symm

/-- The log-standard-deviation half at (c, d) is the block at (c, 64 + d). -/
private theorem pay2_apply (v22 : Vec Ideal S1000x128 .f32) (c : Fin 1000) (d : Fin 64) :
    k0_pay2 (F := Ideal) v22 (ix2 c d) = lsig v22 c d := by
  unfold k0_pay2
  exact slice2_axis1_apply 64 v22 _ c d (colS d) rfl

/-- The exponential of minus twice the log standard deviation is the precision. -/
private theorem pay3_apply (v22 : Vec Ideal S1000x128 .f32) (c : Fin 1000) (d : Fin 64) :
    k0_pay3 (F := Ideal) v22 (ix2 c d) = prec v22 c d := by
  show Ideal.exp (cNeg2 * k0_pay2 (F := Ideal) v22 (ix2 c d)) = _
  rw [pay2_apply]
  rfl

/-- The mean times the precision. -/
private theorem pay4_apply (v22 : Vec Ideal S1000x128 .f32) (c : Fin 1000) (d : Fin 64) :
    k0_pay4 (F := Ideal) v22 (ix2 c d) = mean v22 c d * prec v22 c d := by
  show k0_pay1 (F := Ideal) v22 (ix2 c d) * k0_pay3 (F := Ideal) v22 (ix2 c d) = _
  rw [pay1_apply, pay3_apply]

/-! ## The two tables -/

/-- The first table at (d, c) is A[d, c] of the class block. -/
theorem pay5_apply (v22 : Vec Ideal S1000x128 .f32) (d : Fin 64) (c : Fin 1000) :
    k0_pay5 (F := Ideal) v22 (ix2 d c) = tabA v22 d c := by
  unfold k0_pay5
  rw [shapeCast_self]
  refine (truncf_apply (φ := .f32) (ψ := .bf16) _ bitsLt_bf16_f32 (ix2 d c)).trans ?_
  refine (transpose_ix2_apply _ _ d c).trans ?_
  show cNegHalf * (k0_pay3 (F := Ideal) v22 (ix2 c d) - cOne) = _
  rw [pay3_apply]
  rfl

/-- The second table at (d, c) is B[d, c]. -/
theorem pay6_apply (v22 : Vec Ideal S1000x128 .f32) (d : Fin 64) (c : Fin 1000) :
    k0_pay6 (F := Ideal) v22 (ix2 d c) = tabB v22 d c := by
  unfold k0_pay6
  rw [shapeCast_self]
  refine (truncf_apply (φ := .f32) (ψ := .bf16) _ bitsLt_bf16_f32 (ix2 d c)).trans ?_
  refine (transpose_ix2_apply _ _ d c).trans ?_
  rw [pay4_apply]
  rfl

/-! ## The lane sums -/

/-- The sum along the 64 lanes of a [1000, 64] array, read at class c. -/
private theorem laneSum1000 (x : FVec Ideal S1000x64 .f32) (c : Fin 1000) :
    multiReduction (F := Ideal) .add [1] S1000 x 0x00000000#32 reduces_S1000x64_S1000 (.inl rfl) rfl (ix1 c)
      = ∑ d : Fin 64, x (ix2 c d) := by
  refine (Ideal.multiReduction_add_single x _ reduces_S1000x64_S1000 _ _ (ix1 c)).trans ?_
  show ∑ k : Fin 64, x (reduces_S1000x64_S1000.lift (ix1 c) k) = _
  refine Finset.sum_congr rfl fun k _ => congrArg x ?_
  funext a
  apply Fin.ext
  match a with
  | ⟨0, _⟩ => rfl
  | ⟨1, _⟩ => rfl

/-- The sum along the 64 lanes of a [512, 64] array, read at row r. -/
private theorem laneSum512 (x : FVec Ideal S512x64 .f32) (r : Fin 512) :
    multiReduction (F := Ideal) .add [1] S512 x 0x00000000#32 reduces_S512x64_S512 (.inl rfl) rfl (ix1 r)
      = ∑ d : Fin 64, x (ix2 r d) := by
  refine (Ideal.multiReduction_add_single x _ reduces_S512x64_S512 _ _ (ix1 r)).trans ?_
  show ∑ k : Fin 64, x (reduces_S512x64_S512.lift (ix1 r) k) = _
  refine Finset.sum_congr rfl fun k _ => congrArg x ?_
  funext a
  apply Fin.ext
  match a with
  | ⟨0, _⟩ => rfl
  | ⟨1, _⟩ => rfl

/-! ## The constant row -/

/-- The constant row at class c is C[c]. -/
theorem pay7_apply (v22 : Vec Ideal S1000x128 .f32) (c : Fin 1000) :
    k0_pay7 (F := Ideal) v22 (ix2 (⟨0, Nat.one_pos⟩ : Fin 1) c) = tabC v22 c := by
  unfold k0_pay7
  rw [shapeCast_self]
  refine (shapeCast_a_1a_apply _ _ (⟨0, Nat.one_pos⟩ : Fin 1) c).trans ?_
  show cNegHalf * ((cK + cTwo * multiReduction (F := Ideal) .add [1] S1000 (k0_pay2 (F := Ideal) v22) 0x00000000#32
        reduces_S1000x64_S1000 (.inl rfl) rfl (ix1 c))
      + multiReduction (F := Ideal) .add [1] S1000 (mulf (k0_pay1 (F := Ideal) v22) (k0_pay4 (F := Ideal) v22)) 0x00000000#32
        reduces_S1000x64_S1000 (.inl rfl) rfl (ix1 c)) = _
  rw [laneSum1000, laneSum1000]
  have e1 : ∑ d : Fin 64, k0_pay2 (F := Ideal) v22 (ix2 c d) = ∑ d : Fin 64, lsig v22 c d :=
    Finset.sum_congr rfl fun d _ => pay2_apply v22 c d
  have e2 : ∑ d : Fin 64, mulf (k0_pay1 (F := Ideal) v22) (k0_pay4 (F := Ideal) v22) (ix2 c d)
      = ∑ d : Fin 64, mean v22 c d * (mean v22 c d * prec v22 c d) :=
    Finset.sum_congr rfl fun d _ => by
      show k0_pay1 (F := Ideal) v22 (ix2 c d) * k0_pay4 (F := Ideal) v22 (ix2 c d) = _
      rw [pay1_apply, pay4_apply]
  rw [e1, e2]
  rfl

/-! ## The matrix product into the zero accumulator -/

/-- The left operand's row coordinate is the output's. -/
private theorem lhs_axis0 (i : S512x1000.Idx) (q : dot_S512x64_S64x1000_S512x1000_1_0_0_1_n_n.contr.Idx) :
    (dot_S512x64_S64x1000_S512x1000_1_0_0_1_n_n.lhsIdx i q 0).val = (i 0).val := by
  unfold DotDims.lhsIdx
  rw [dif_neg (show ¬(0 : Fin S512x64.rank) ∈ dot_S512x64_S64x1000_S512x1000_1_0_0_1_n_n.lhsBatch by decide),
    dif_pos (show (0 : Fin S512x64.rank) ∈ dot_S512x64_S64x1000_S512x1000_1_0_0_1_n_n.lhsNonContracting by decide)]
  rfl

/-- The left operand's column coordinate is the contraction's. -/
private theorem lhs_axis1 (i : S512x1000.Idx) (q : dot_S512x64_S64x1000_S512x1000_1_0_0_1_n_n.contr.Idx) :
    (dot_S512x64_S64x1000_S512x1000_1_0_0_1_n_n.lhsIdx i q 1).val = (q ⟨0, by decide⟩).val :=
  dot_S512x64_S64x1000_S512x1000_1_0_0_1_n_n.lhsIdx_val_of_single rfl i q

/-- The right operand's row coordinate is the contraction's. -/
private theorem rhs_axis0 (i : S512x1000.Idx) (q : dot_S512x64_S64x1000_S512x1000_1_0_0_1_n_n.contr.Idx) :
    (dot_S512x64_S64x1000_S512x1000_1_0_0_1_n_n.rhsIdx i q 0).val = (q ⟨0, by decide⟩).val :=
  dot_S512x64_S64x1000_S512x1000_1_0_0_1_n_n.rhsIdx_val_of_single rfl i q

/-- The right operand's column coordinate is the output's. -/
private theorem rhs_axis1 (i : S512x1000.Idx) (q : dot_S512x64_S64x1000_S512x1000_1_0_0_1_n_n.contr.Idx) :
    (dot_S512x64_S64x1000_S512x1000_1_0_0_1_n_n.rhsIdx i q 1).val = (i 1).val := by
  unfold DotDims.rhsIdx
  rw [dif_neg (show ¬(1 : Fin S64x1000.rank) ∈ dot_S512x64_S64x1000_S512x1000_1_0_0_1_n_n.rhsBatch by decide),
    dif_pos (show (1 : Fin S64x1000.rank) ∈ dot_S512x64_S64x1000_S512x1000_1_0_0_1_n_n.rhsNonContracting by decide)]
  rfl

/-- A [512, 64] by [64, 1000] product into the zero block, at (r, c): the sum over the 64 shared coordinates. -/
private theorem matmul_zero_apply (x : FVec Ideal S512x64 .bf16) (y : FVec Ideal S64x1000 .bf16) (r : Fin 512) (c : Fin 1000) :
    matmul dot_S512x64_S64x1000_S512x1000_1_0_0_1_n_n none x y (constant (F := Ideal) S512x1000 .f32 0x00000000#32) (ix2 r c)
      = ∑ d : Fin 64, x (ix2 r d) * y (ix2 d c) := by
  simp only [matmul]
  rw [Ideal.matmul_constant_zero_apply,
    ← Equiv.sum_comp (contrEquiv1 dot_S512x64_S64x1000_S512x1000_1_0_0_1_n_n 64 rfl rfl).symm]
  refine Finset.sum_congr rfl fun k _ => ?_
  have hk := contrEquiv1_symm_val dot_S512x64_S64x1000_S512x1000_1_0_0_1_n_n 64 rfl rfl k
  have el : dot_S512x64_S64x1000_S512x1000_1_0_0_1_n_n.lhsIdx (ix2 r c)
      ((contrEquiv1 dot_S512x64_S64x1000_S512x1000_1_0_0_1_n_n 64 rfl rfl).symm k) = ix2 r k :=
    funext fun a => Fin.ext (by
      match a with
      | ⟨0, _⟩ => exact lhs_axis0 _ _
      | ⟨1, _⟩ => exact (lhs_axis1 _ _).trans hk)
  have er : dot_S512x64_S64x1000_S512x1000_1_0_0_1_n_n.rhsIdx (ix2 r c)
      ((contrEquiv1 dot_S512x64_S64x1000_S512x1000_1_0_0_1_n_n 64 rfl rfl).symm k) = ix2 k c :=
    funext fun a => Fin.ext (by
      match a with
      | ⟨0, _⟩ => exact (rhs_axis0 _ _).trans hk
      | ⟨1, _⟩ => exact rhs_axis1 _ _)
  rw [el, er]

/-! ## The column of row terms spread over the classes -/

/-- A [512] vector cast to a [512, 1] column reads, at (r, u), the vector at r. -/
private theorem shapeCast_512_512x1_apply (x : S512.Idx → EReal) (r : Fin 512) (u : Fin 1) :
    shapeCast S512x1 x shapeCasts_S512_S512x1 (ix2 r u) = x (ix1 r) :=
  shapeCast_apply x _ _ _ (by
    have hu : u.val = 0 := by omega
    rw [Shape.rowMajor_val_two, Shape.rowMajor_val_one]
    show r.val = r.val * 1 + u.val
    rw [hu, Nat.mul_one, Nat.add_zero])

/-- A [512, 1] column broadcast to [512, 1000] reads, at (r, c), the column at (r, 0). -/
private theorem broadcastTo_512x1_apply (x : S512x1.Idx → EReal) (r : Fin 512) (c : Fin 1000) :
    broadcastTo S512x1000 x broadcasts_S512x1_S512x1000 (ix2 r c) = x (ix2 r (⟨0, Nat.one_pos⟩ : Fin 1)) := by
  refine broadcastTo_apply x _ (ix2 r c) (ix2 r (⟨0, Nat.one_pos⟩ : Fin 1)) fun ax => ?_
  match ax with
  | ⟨0, _⟩ => rfl
  | ⟨1, _⟩ => rfl

/-! ## The output block -/

/-- The output block at (r, c): the row formula of row r of the batch block against column c of the tables. -/
theorem pay8_apply (v3 : Vec Ideal S512x64 .f32) (v10 v13 : Vec Ideal S64x1000 .bf16) (v18 : Vec Ideal S1x1000 .f32)
    (r : Fin 512) (c : Fin 1000) :
    k0_pay8 (F := Ideal) v3 v10 v13 v18 (ix2 r c)
      = rowVal (fun d => v3 (ix2 r d)) (fun d => v10 (ix2 d c)) (fun d => v13 (ix2 d c))
          (v18 (ix2 (⟨0, Nat.one_pos⟩ : Fin 1) c)) := by
  unfold k0_pay8
  refine (addf_apply _ _ _).trans ?_
  refine congrArg₂ (· + ·) ?_ (broadcastTo_1b_ab_apply v18 _ r c)
  refine (addf_apply _ _ _).trans ?_
  refine congrArg₂ (· + ·) ?_ ?_
  · refine (addf_apply _ _ _).trans ?_
    refine congrArg₂ (· + ·) ?_ ?_
    · exact matmul_zero_apply _ v10 r c
    · exact matmul_zero_apply _ v13 r c
  · refine (broadcastTo_512x1_apply _ r c).trans ?_
    show cNegHalf * shapeCast S512x1 _ shapeCasts_S512_S512x1 (ix2 r (⟨0, Nat.one_pos⟩ : Fin 1)) = _
    rw [shapeCast_512_512x1_apply, laneSum512]
    rfl

end Cert.KernelIdeal.Payload

end
-- ==== Proof.KernelValue.lean ====
/-
  The kernel's result array, at the ideal values, is the specification's `kerArr` of the two argument arrays.

  The grid has two points; point t computes rows 512·t … 512·t + 511 of the result from rows 512·t … of the
  batch (its block of window 0) and from three per-class tables. The tables are filled at point 0 from the
  class table, whose one block is the whole array at every point, and are carried unchanged to point 1. So at
  BOTH points the output block is the body's row formula of the point's batch block against the tables of the
  whole class table; read at an index this is `kerVal`, the two blocks tile the result, and the array after
  the run is `kerArr`.
-/
import proofs.«180006_g45595372814773_cont_8to1_c_604_6_alg».proof.Proof.Gen.KernelIdeal.Value
import proofs.«180006_g45595372814773_cont_8to1_c_604_6_alg».proof.Proof.KernelPieces
import proofs.«180006_g45595372814773_cont_8to1_c_604_6_alg».proof.Proof.KernelPayload
import proofs.«180006_g45595372814773_cont_8to1_c_604_6_alg».proof.Proof.Spec
import Idealize.ShloMosaic.Lib.Pipeline.Value

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx Cert.GaussMix

variable (m : (ℓ : Loc nD τ sig) → Buf (Elt Ideal) ℓ) (ρ : Dev nD → PrngReg)

/-- The batch as the region finds it. -/
abbrev xarr (c : Dev nD) : Vec Ideal S1024x64 .f32 := V m c main_arg0
/-- The class table as the region finds it. -/
abbrev cearr (c : Dev nD) : Vec Ideal S1000x128 .f32 := V m c main_arg1
/-- The batch block of point `t`. -/
abbrev xblk (c : Dev nD) (t : Fin cfg0.N) : Vec Ideal S512x64 .f32 := iblk m c 0 t
/-- The class-table block of point `t`. -/
abbrev ceblk (c : Dev nD) (t : Fin cfg0.N) : Vec Ideal S1000x128 .f32 := iblk m c 1 t

/-- Where the windows' blocks sit, decided over the two points: the batch and result blocks at block row
    `t`, the class table's at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The class table's block is the whole table, at every point. -/
theorem ceblk_eq (c : Dev nD) (t : Fin cfg0.N) : ceblk m c t = cearr m c := by
  obtain ⟨-, -, e2, e3, -, -⟩ := idx_facts t
  funext y
  show V m c main_arg1 (((cfg0.win 1).blk t).view.emb y) = V m c main_arg1 y
  congr 1
  funext a; apply Fin.ext
  match a with
  | ⟨0, _⟩ => show win0_1.index t (0 : Fin 2) * 1000 + 1 * (y 0).val = (y 0).val; omega
  | ⟨1, _⟩ => show win0_1.index t (1 : Fin 2) * 128 + 1 * (y 1).val = (y 1).val; omega

/-- The batch block of point `t` holds rows `512·t + r` of the batch. -/
theorem xblk_apply (c : Dev nD) (t : Fin cfg0.N) (y : S512x64.Idx) (i : S1024x64.Idx)
    (h0 : (i 0).val = 512 * t.val + (y 0).val) (h1 : (i 1).val = (y 1).val) :
    xblk m c t y = xarr m c i := by
  obtain ⟨e0, e1, -, -, -, -⟩ := idx_facts t
  show V m c main_arg0 (((cfg0.win 0).blk t).view.emb y) = V m c main_arg0 i
  congr 1
  funext a; apply Fin.ext
  match a with
  | ⟨0, _⟩ => show win0_0.index t (0 : Fin 2) * 512 + 1 * (y 0).val = (i 0).val; omega
  | ⟨1, _⟩ => show win0_0.index t (1 : Fin 2) * 64 + 1 * (y 1).val = (i 1).val; omega

/-- After the first point the three tables are the body's table terms of the whole class table. -/
theorem tables_first (c : Dev nD) (h : 0 < cfg0.N) :
    (outsAt0 m c 0 h).2 = (k0_pay5 (cearr m c), k0_pay6 (cearr m c), k0_pay7 (cearr m c)) := by
  rw [outsAt0_A m c ⟨0, h⟩ rfl]
  dsimp only
  rw [Pieces.sout_A_0, Pieces.sout_A_1, Pieces.sout_A_2]
  show (k0_pay5 (ceblk m c ⟨0, h⟩), k0_pay6 (ceblk m c ⟨0, h⟩), k0_pay7 (ceblk m c ⟨0, h⟩)) = _
  rw [ceblk_eq]

/-- At either point the output block is the row formula of the point's batch block against those tables. -/
theorem out_at (c : Dev nD) (t : Fin cfg0.N) :
    (outsAt0 m c t.val t.isLt).1
      = k0_pay8 (xblk m c t) (k0_pay5 (cearr m c)) (k0_pay6 (cearr m c)) (k0_pay7 (cearr m c)) := by
  have hN : cfg0.N = 2 := N_0
  obtain ⟨n, hn⟩ := t
  match n, hn with
  | 0, hn =>
    rw [outsAt0_A m c ⟨0, hn⟩ rfl]
    dsimp only
    rw [Pieces.out_A_2]
    show k0_pay8 (xblk m c ⟨0, hn⟩) (k0_pay5 (ceblk m c ⟨0, hn⟩)) (k0_pay6 (ceblk m c ⟨0, hn⟩)) (k0_pay7 (ceblk m c ⟨0, hn⟩)) = _
    rw [ceblk_eq]
  | 1, hn =>
    rw [outsAt0_B m c ⟨1, hn⟩ (show ¬(1 % 2 = 0) by decide)]
    dsimp only
    rw [Pieces.out_B_2]
    have e := tables_first m c (Nat.lt_of_succ_lt hn)
    show k0_pay8 (xblk m c ⟨1, hn⟩) (outsAt0 m c 0 _).2.1 (outsAt0 m c 0 _).2.2.1 (outsAt0 m c 0 _).2.2.2 = _
    rw [e]
  | n + 2, hn => exact absurd hn (by omega)

/-- The body's row formula at an index of a block whose rows are rows `512·k + r` of the batch is the
    specification's score at the corresponding index of the result. -/
theorem block_val (xb : Vec Ideal S512x64 .f32) (x : Vec Ideal S1024x64 .f32) (ce : Vec Ideal S1000x128 .f32) (k : ℕ)
    (hxb : ∀ (y : S512x64.Idx) (i : S1024x64.Idx), (i 0).val = 512 * k + (y 0).val → (i 1).val = (y 1).val → xb y = x i)
    (y : S512x1000.Idx) (i : S1024x1000.Idx) (h0 : (i 0).val = 512 * k + (y 0).val) (h1 : (i 1).val = (y 1).val) :
    k0_pay8 (F := Ideal) xb (k0_pay5 ce) (k0_pay6 ce) (k0_pay7 ce) y = kerArr x ce i := by
  obtain ⟨r, q, rfl⟩ : ∃ (r : Fin 512) (q : Fin 1000), y = ix2 r q := ⟨y 0, y 1, eq_ix2 y⟩
  rw [Payload.pay8_apply]
  unfold kerArr kerVal
  have hq : (⟨(i 1).val, idx2_lt1 i⟩ : Fin 1000) = q := Fin.ext h1
  rw [hq]
  congr 1
  · funext d; exact hxb (ix2 r d) (ix2 ⟨(i 0).val, idx2_lt0 i⟩ d) h0 rfl
  · funext d; exact Payload.pay5_apply ce d q
  · funext d; exact Payload.pay6_apply ce d q
  · exact Payload.pay7_apply ce q

/-- WHAT POINT `t` WRITES BACK is block `t` of `kerArr` of the two argument arrays. -/
theorem flushed_eq (c : Dev nD) (t : Fin cfg0.N) :
    (dats m 0 c).flushed 2 t = ((cfg0.win 2).blk t).view.read (Elt Ideal) (kerArr (xarr m c) (cearr m c)) := by
  rw [Value.flushed2, out_at]
  obtain ⟨-, -, -, -, e4, e5⟩ := idx_facts t
  funext y
  show k0_pay8 (F := Ideal) (xblk m c t) (k0_pay5 (cearr m c)) (k0_pay6 (cearr m c)) (k0_pay7 (cearr m c)) y
    = kerArr (xarr m c) (cearr m c) (((cfg0.win 2).blk t).view.emb y)
  refine block_val (xblk m c t) (xarr m c) (cearr m c) t.val (fun y' i h0 h1 => xblk_apply m c t y' i h0 h1) y _ ?_ ?_
  · show win0_2.index t (0 : Fin 2) * 512 + 1 * (y 0).val = 512 * t.val + (y 0).val; omega
  · show win0_2.index t (1 : Fin 2) * 1000 + 1 * (y 1).val = (y 1).val; omega

/-- An index of the result is in point `t`'s block iff each coordinate is in the block's range on its axis. -/
theorem mem_blk (t : Fin cfg0.N) (i : S1024x1000.Idx) :
    i ∈ ((cfg0.win 2).blk t).view.set ↔ ∀ a : Fin 2, win0_2.index t a * S512x1000.size a ≤ (i a).val ∧ (i a).val < win0_2.index t a * S512x1000.size a + S512x1000.size a := by
  show i ∈ ((View.whole main_v0).slice (win0_2.rect t)).set ↔ _
  rw [View.set_slice_whole, Rect.mem_set_unit]
  exact Iff.rfl

/-- The two blocks tile the result: row `i₀` lies in the block of point `i₀ / 512`. -/
theorem cover (i : S1024x1000.Idx) : ∃ t : Fin cfg0.N, (cfg0.win 2).flush t = true ∧ i ∈ ((cfg0.win 2).blk t).view.set := by
  have hN : cfg0.N = 2 := N_0
  have hi0 : (i 0).val < 1024 := (i 0).isLt
  have hi1 : (i 1).val < 1000 := (i 1).isLt
  let t : Fin cfg0.N := ⟨(i 0).val / 512, by omega⟩
  obtain ⟨-, -, -, -, e4, e5⟩ := idx_facts t
  have e4' : win0_2.index t (0 : Fin 2) = (i 0).val / 512 := e4
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1000 ≤ (i 1).val ∧ (i 1).val < win0_2.index t (1 : Fin 2) * 1000 + 1000; omega

/-- THE ARRAY after the run is `kerArr` of the argument arrays. -/
theorem final (c : Dev nD) :
    (dats m 0 c).arrAt 2 cfg0.N = kerArr (m ((c : Thread nD τ).loc main_arg0)) (m ((c : Thread nD τ).loc main_arg1)) :=
  (dats m 0 c).arrAt_eq_of_cover 2 (kerArr (xarr m c) (cearr m c)) (fun t _ => flushed_eq m c t) cover

/-- The run, read: the result array at `kerArr` of the arguments, the arguments unchanged. -/
theorem run : θ_run defs (onTc (τ := τ) (main (F := Ideal))) ⟨m, fun _ => 0, ρ⟩ fun r => ∀ c : Dev nD,
      r.2.mem ((c : Thread nD τ).loc main_v0) = kerArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2.1, (h c).2.2⟩) (Value.run_blocks m ρ)

end Cert.KernelIdeal.KValue

end
-- ==== Proof.RefOps.lean ====
/-
  The reference program as a straight line. Its @main builds, for every (row, class) pair, the class index
  c (an iota tiled over the batch and flattened), a copy of the batch row, and the class row fetched by a
  gather at that index; then the pointwise score and its sum over the 64 features. The index arithmetic and
  the gather sit in two outlined functions (a wrap of negative indices, then the clamped take with an
  out-of-range mask): their operations are listed here in place, over the buffers the one call names, so that
  the whole program is one list of 53 host operations run in order. The same list is also given cut into its
  three stretches (layout of the pairs, the take, the score), whose concatenation it is.
-/
import proofs.«180006_g45595372814773_cont_8to1_c_604_6_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order: eight that lay out the class indices and the repeated batch rows, the
    twenty-three of the take (its index wrap in place), and the twenty-two of the score. -/
abbrev ops : List (HloOp τ sig (Elt F)) :=
  [ nullary main_v0 (iotaInDim S1000 32 0),
    reshape main_v0 main_v1 rfl shapeCasts_S1000_S1x1000,
    unary main_v1 main_v2 (broadcastInDim S1024x1000 ![0, 1] bcast_S1x1000_S1024x1000_0_1 : (⟨S1x1000, .i32⟩ : BufTy).Contents (Elt F) → (⟨S1024x1000, .i32⟩ : BufTy).Contents (Elt F)),
    reshape main_v2 main_v3 rfl shapeCasts_S1024x1000_S1024000,
    unary main_arg0 main_v4 (broadcastInDim S1024x1x64 ![0, 2] bcast_S1024x64_S1024x1x64_0_2 : (⟨S1024x64, .f32⟩ : BufTy).Contents (Elt F) → (⟨S1024x1x64, .f32⟩ : BufTy).Contents (Elt F)),
    unary main_v4 main_v5 (broadcastInDim S1024x1x1000x64 ![0, 1, 3] bcast_S1024x1x64_S1024x1x1000x64_0_1_3 : (⟨S1024x1x64, .f32⟩ : BufTy).Contents (Elt F) → (⟨S1024x1x1000x64, .f32⟩ : BufTy).Contents (Elt F)),
    reshape main_v5 main_v6 rfl shapeCasts_S1024x1x1000x64_S1024x1000x64,
    reshape main_v6 main_v7 rfl shapeCasts_S1024x1000x64_S1024000x64,
    TRef.nullary main_call0.c (constantI S_ 32 0#32),
    TRef.unary main_call0.c main_call0.v0 (broadcastInDim S1024000 ![] bcast_S_S1024000),
    TRef.binary (.of main_v3) main_call0.v0 main_call0.v1 (cmpi .slt),
    TRef.nullary main_call0.c_0 (constantI S_ 32 1000#32),
    TRef.unary main_call0.c_0 main_call0.v2 (broadcastInDim S1024000 ![] bcast_S_S1024000),
    TRef.binary (.of main_v3) main_call0.v2 main_call0.v3 addi,
    TRef.ternary main_call0.v1 main_call0.v3 (.of main_v3) main_call0.call0.v0 select,
    TRef.unary main_call0.call0.v0 main_call0.v5 (broadcastInDim S1024000x1 ![0] bcast_S1024000_S1024000x1_0),
    TRef.nullary main_call0.c_1 (constantI S1 32 999#32),
    TRef.nullary main_call0.c_2 (constantI S_ 32 0#32),
    TRef.unary main_call0.c_2 main_call0.v6 (broadcastInDim S1024000x1 ![] bcast_S_S1024000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1024000x1 ![0, 1] bcast_S1x1_S1024000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024000x1_S1024000_d1 h_S_),
    TRef.binary (.of main_arg1) main_call0.v5 main_call0.v13 (fun x i => Host.gather gather_S1000x128_S1024000x1_S1024000x128_1_0_n_n_0_1_1128 x i),
    TRef.unary main_call0.v12 main_call0.v14 (broadcastInDim S1024000x128 ![0] bcast_S1024000_S1024000x128_0),
    TRef.nullary main_call0.cst (constant S_ .f32 0x7FC00000#32),
    TRef.unary main_call0.cst main_call0.v15 (broadcastInDim S1024000x128 ![] bcast_S_S1024000x128),
    TRef.ternary main_call0.v14 main_call0.v13 main_call0.v15 main_call0.v16 select,
    unary main_v8 main_v9 ((extractStridedSlice S1024000x64 ![0, 0] · slices_S1024000x128_S1024000x64_0_0) : (⟨S1024000x128, .f32⟩ : BufTy).Contents (Elt F) → (⟨S1024000x64, .f32⟩ : BufTy).Contents (Elt F)),
    unary main_v8 main_v10 ((extractStridedSlice S1024000x64 ![0, 64] · slices_S1024000x128_S1024000x64_0_64) : (⟨S1024000x128, .f32⟩ : BufTy).Contents (Elt F) → (⟨S1024000x64, .f32⟩ : BufTy).Contents (Elt F)),
    nullary main_cst (constant S_ .f32 0x40000000#32),
    unary main_cst main_v11 (broadcastInDim S1024000x64 ![] bcast_S_S1024000x64 : (⟨S_, .f32⟩ : BufTy).Contents (Elt F) → (⟨S1024000x64, .f32⟩ : BufTy).Contents (Elt F)),
    binary main_v11 main_v10 main_v12 (mulf : (⟨S1024000x64, .f32⟩ : BufTy).Contents (Elt F) → (⟨S1024000x64, .f32⟩ : BufTy).Contents (Elt F) → (⟨S1024000x64, .f32⟩ : BufTy).Contents (Elt F)),
    nullary main_cst_0 (constant S_ .f32 0x3FEB3F8E#32),
    unary main_cst_0 main_v13 (broadcastInDim S1024000x64 ![] bcast_S_S1024000x64 : (⟨S_, .f32⟩ : BufTy).Contents (Elt F) → (⟨S1024000x64, .f32⟩ : BufTy).Contents (Elt F)),
    binary main_v13 main_v12 main_v14 (addf : (⟨S1024000x64, .f32⟩ : BufTy).Contents (Elt F) → (⟨S1024000x64, .f32⟩ : BufTy).Contents (Elt F) → (⟨S1024000x64, .f32⟩ : BufTy).Contents (Elt F)),
    binary main_v7 main_v9 main_v15 (subf : (⟨S1024000x64, .f32⟩ : BufTy).Contents (Elt F) → (⟨S1024000x64, .f32⟩ : BufTy).Contents (Elt F) → (⟨S1024000x64, .f32⟩ : BufTy).Contents (Elt F)),
    binary main_v15 main_v15 main_v16 (mulf : (⟨S1024000x64, .f32⟩ : BufTy).Contents (Elt F) → (⟨S1024000x64, .f32⟩ : BufTy).Contents (Elt F) → (⟨S1024000x64, .f32⟩ : BufTy).Contents (Elt F)),
    nullary main_cst_1 (constant S_ .f32 0xC0000000#32),
    unary main_cst_1 main_v17 (broadcastInDim S1024000x64 ![] bcast_S_S1024000x64 : (⟨S_, .f32⟩ : BufTy).Contents (Elt F) → (⟨S1024000x64, .f32⟩ : BufTy).Contents (Elt F)),
    binary main_v17 main_v10 main_v18 (mulf : (⟨S1024000x64, .f32⟩ : BufTy).Contents (Elt F) → (⟨S1024000x64, .f32⟩ : BufTy).Contents (Elt F) → (⟨S1024000x64, .f32⟩ : BufTy).Contents (Elt F)),
    unary main_v18 main_v19 (Host.exp : (⟨S1024000x64, .f32⟩ : BufTy).Contents (Elt F) → (⟨S1024000x64, .f32⟩ : BufTy).Contents (Elt F)),
    binary main_v16 main_v19 main_v20 (mulf : (⟨S1024000x64, .f32⟩ : BufTy).Contents (Elt F) → (⟨S1024000x64, .f32⟩ : BufTy).Contents (Elt F) → (⟨S1024000x64, .f32⟩ : BufTy).Contents (Elt F)),
    binary main_v14 main_v20 main_v21 (addf : (⟨S1024000x64, .f32⟩ : BufTy).Contents (Elt F) → (⟨S1024000x64, .f32⟩ : BufTy).Contents (Elt F) → (⟨S1024000x64, .f32⟩ : BufTy).Contents (Elt F)),
    nullary main_cst_2 (constant S_ .f32 0xBF000000#32),
    unary main_cst_2 main_v22 (broadcastInDim S1024000x64 ![] bcast_S_S1024000x64 : (⟨S_, .f32⟩ : BufTy).Contents (Elt F) → (⟨S1024000x64, .f32⟩ : BufTy).Contents (Elt F)),
    binary main_v22 main_v21 main_v23 (mulf : (⟨S1024000x64, .f32⟩ : BufTy).Contents (Elt F) → (⟨S1024000x64, .f32⟩ : BufTy).Contents (Elt F) → (⟨S1024000x64, .f32⟩ : BufTy).Contents (Elt F)),
    nullary main_cst_3 (constant S_ .f32 0x00000000#32),
    binary main_v23 main_cst_3 main_v24 ((fun x v => Host.reduceAdd x v reducesTo_S1024000x64_S1024000_d1 h_S_) : (⟨S1024000x64, .f32⟩ : BufTy).Contents (Elt F) → (⟨S_, .f32⟩ : BufTy).Contents (Elt F) → (⟨S1024000, .f32⟩ : BufTy).Contents (Elt F)),
    reshape main_v24 main_v25 rfl shapeCasts_S1024000_S1024x1000 ]

/-- The first stretch: the class index and the repeated batch row at every flat position. -/
abbrev opsLayout : List (HloOp τ sig (Elt F)) :=
  [ nullary main_v0 (iotaInDim S1000 32 0),
    reshape main_v0 main_v1 rfl shapeCasts_S1000_S1x1000,
    unary main_v1 main_v2 (broadcastInDim S1024x1000 ![0, 1] bcast_S1x1000_S1024x1000_0_1 : (⟨S1x1000, .i32⟩ : BufTy).Contents (Elt F) → (⟨S1024x1000, .i32⟩ : BufTy).Contents (Elt F)),
    reshape main_v2 main_v3 rfl shapeCasts_S1024x1000_S1024000,
    unary main_arg0 main_v4 (broadcastInDim S1024x1x64 ![0, 2] bcast_S1024x64_S1024x1x64_0_2 : (⟨S1024x64, .f32⟩ : BufTy).Contents (Elt F) → (⟨S1024x1x64, .f32⟩ : BufTy).Contents (Elt F)),
    unary main_v4 main_v5 (broadcastInDim S1024x1x1000x64 ![0, 1, 3] bcast_S1024x1x64_S1024x1x1000x64_0_1_3 : (⟨S1024x1x64, .f32⟩ : BufTy).Contents (Elt F) → (⟨S1024x1x1000x64, .f32⟩ : BufTy).Contents (Elt F)),
    reshape main_v5 main_v6 rfl shapeCasts_S1024x1x1000x64_S1024x1000x64,
    reshape main_v6 main_v7 rfl shapeCasts_S1024x1000x64_S1024000x64 ]

/-- The second stretch: the take of the class rows at those indices. -/
abbrev opsTake : List (HloOp τ sig (Elt F)) :=
  [ TRef.nullary main_call0.c (constantI S_ 32 0#32),
    TRef.unary main_call0.c main_call0.v0 (broadcastInDim S1024000 ![] bcast_S_S1024000),
    TRef.binary (.of main_v3) main_call0.v0 main_call0.v1 (cmpi .slt),
    TRef.nullary main_call0.c_0 (constantI S_ 32 1000#32),
    TRef.unary main_call0.c_0 main_call0.v2 (broadcastInDim S1024000 ![] bcast_S_S1024000),
    TRef.binary (.of main_v3) main_call0.v2 main_call0.v3 addi,
    TRef.ternary main_call0.v1 main_call0.v3 (.of main_v3) main_call0.call0.v0 select,
    TRef.unary main_call0.call0.v0 main_call0.v5 (broadcastInDim S1024000x1 ![0] bcast_S1024000_S1024000x1_0),
    TRef.nullary main_call0.c_1 (constantI S1 32 999#32),
    TRef.nullary main_call0.c_2 (constantI S_ 32 0#32),
    TRef.unary main_call0.c_2 main_call0.v6 (broadcastInDim S1024000x1 ![] bcast_S_S1024000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1024000x1 ![0, 1] bcast_S1x1_S1024000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024000x1_S1024000_d1 h_S_),
    TRef.binary (.of main_arg1) main_call0.v5 main_call0.v13 (fun x i => Host.gather gather_S1000x128_S1024000x1_S1024000x128_1_0_n_n_0_1_1128 x i),
    TRef.unary main_call0.v12 main_call0.v14 (broadcastInDim S1024000x128 ![0] bcast_S1024000_S1024000x128_0),
    TRef.nullary main_call0.cst (constant S_ .f32 0x7FC00000#32),
    TRef.unary main_call0.cst main_call0.v15 (broadcastInDim S1024000x128 ![] bcast_S_S1024000x128),
    TRef.ternary main_call0.v14 main_call0.v13 main_call0.v15 main_call0.v16 select ]

/-- The third stretch: the pointwise score, its sum over the features, and the result's layout. -/
abbrev opsScore : List (HloOp τ sig (Elt F)) :=
  [ unary main_v8 main_v9 ((extractStridedSlice S1024000x64 ![0, 0] · slices_S1024000x128_S1024000x64_0_0) : (⟨S1024000x128, .f32⟩ : BufTy).Contents (Elt F) → (⟨S1024000x64, .f32⟩ : BufTy).Contents (Elt F)),
    unary main_v8 main_v10 ((extractStridedSlice S1024000x64 ![0, 64] · slices_S1024000x128_S1024000x64_0_64) : (⟨S1024000x128, .f32⟩ : BufTy).Contents (Elt F) → (⟨S1024000x64, .f32⟩ : BufTy).Contents (Elt F)),
    nullary main_cst (constant S_ .f32 0x40000000#32),
    unary main_cst main_v11 (broadcastInDim S1024000x64 ![] bcast_S_S1024000x64 : (⟨S_, .f32⟩ : BufTy).Contents (Elt F) → (⟨S1024000x64, .f32⟩ : BufTy).Contents (Elt F)),
    binary main_v11 main_v10 main_v12 (mulf : (⟨S1024000x64, .f32⟩ : BufTy).Contents (Elt F) → (⟨S1024000x64, .f32⟩ : BufTy).Contents (Elt F) → (⟨S1024000x64, .f32⟩ : BufTy).Contents (Elt F)),
    nullary main_cst_0 (constant S_ .f32 0x3FEB3F8E#32),
    unary main_cst_0 main_v13 (broadcastInDim S1024000x64 ![] bcast_S_S1024000x64 : (⟨S_, .f32⟩ : BufTy).Contents (Elt F) → (⟨S1024000x64, .f32⟩ : BufTy).Contents (Elt F)),
    binary main_v13 main_v12 main_v14 (addf : (⟨S1024000x64, .f32⟩ : BufTy).Contents (Elt F) → (⟨S1024000x64, .f32⟩ : BufTy).Contents (Elt F) → (⟨S1024000x64, .f32⟩ : BufTy).Contents (Elt F)),
    binary main_v7 main_v9 main_v15 (subf : (⟨S1024000x64, .f32⟩ : BufTy).Contents (Elt F) → (⟨S1024000x64, .f32⟩ : BufTy).Contents (Elt F) → (⟨S1024000x64, .f32⟩ : BufTy).Contents (Elt F)),
    binary main_v15 main_v15 main_v16 (mulf : (⟨S1024000x64, .f32⟩ : BufTy).Contents (Elt F) → (⟨S1024000x64, .f32⟩ : BufTy).Contents (Elt F) → (⟨S1024000x64, .f32⟩ : BufTy).Contents (Elt F)),
    nullary main_cst_1 (constant S_ .f32 0xC0000000#32),
    unary main_cst_1 main_v17 (broadcastInDim S1024000x64 ![] bcast_S_S1024000x64 : (⟨S_, .f32⟩ : BufTy).Contents (Elt F) → (⟨S1024000x64, .f32⟩ : BufTy).Contents (Elt F)),
    binary main_v17 main_v10 main_v18 (mulf : (⟨S1024000x64, .f32⟩ : BufTy).Contents (Elt F) → (⟨S1024000x64, .f32⟩ : BufTy).Contents (Elt F) → (⟨S1024000x64, .f32⟩ : BufTy).Contents (Elt F)),
    unary main_v18 main_v19 (Host.exp : (⟨S1024000x64, .f32⟩ : BufTy).Contents (Elt F) → (⟨S1024000x64, .f32⟩ : BufTy).Contents (Elt F)),
    binary main_v16 main_v19 main_v20 (mulf : (⟨S1024000x64, .f32⟩ : BufTy).Contents (Elt F) → (⟨S1024000x64, .f32⟩ : BufTy).Contents (Elt F) → (⟨S1024000x64, .f32⟩ : BufTy).Contents (Elt F)),
    binary main_v14 main_v20 main_v21 (addf : (⟨S1024000x64, .f32⟩ : BufTy).Contents (Elt F) → (⟨S1024000x64, .f32⟩ : BufTy).Contents (Elt F) → (⟨S1024000x64, .f32⟩ : BufTy).Contents (Elt F)),
    nullary main_cst_2 (constant S_ .f32 0xBF000000#32),
    unary main_cst_2 main_v22 (broadcastInDim S1024000x64 ![] bcast_S_S1024000x64 : (⟨S_, .f32⟩ : BufTy).Contents (Elt F) → (⟨S1024000x64, .f32⟩ : BufTy).Contents (Elt F)),
    binary main_v22 main_v21 main_v23 (mulf : (⟨S1024000x64, .f32⟩ : BufTy).Contents (Elt F) → (⟨S1024000x64, .f32⟩ : BufTy).Contents (Elt F) → (⟨S1024000x64, .f32⟩ : BufTy).Contents (Elt F)),
    nullary main_cst_3 (constant S_ .f32 0x00000000#32),
    binary main_v23 main_cst_3 main_v24 ((fun x v => Host.reduceAdd x v reducesTo_S1024000x64_S1024000_d1 h_S_) : (⟨S1024000x64, .f32⟩ : BufTy).Contents (Elt F) → (⟨S_, .f32⟩ : BufTy).Contents (Elt F) → (⟨S1024000, .f32⟩ : BufTy).Contents (Elt F)),
    reshape main_v24 main_v25 rfl shapeCasts_S1024000_S1024x1000 ]

end Cert.ReferenceIdeal.RefRun

end
-- ==== Proof.RefRun.lean ====
/-
  The reference program runs to the fold of its operations. Unfolding the two outlined functions at their
  calls makes @main the sequence of the 53 listed operations; none of its buffers is scoped and it has no
  semaphores, so the library's straight-line run applies: every weakly fair execution terminates, and each
  buffer ends at the operations' fold over the launch contents.
-/
import proofs.«180006_g45595372814773_cont_8to1_c_604_6_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- fifty-three binds re-associated: the rewriting under the chain recurses once per statement
set_option maxRecDepth 2048 in
/-- @main is the listed operations in sequence: the two outlined bodies unfolded where they are called, and
    sequencing re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., reshape_bufs_sub .., unary_bufs_sub .., reshape_bufs_sub .., unary_bufs_sub .., unary_bufs_sub .., reshape_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., unary_bufs_sub .., binary_bufs_sub .., binary_bufs_sub .., nullary_bufs_sub .., unary_bufs_sub .., binary_bufs_sub .., nullary_bufs_sub .., binary_bufs_sub .., reshape_bufs_sub ..⟩

/-- From any memory with zero counters every weakly fair execution of @main terminates, and each TensorCore
    buffer ends at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerm.lean ====
/-
  What the reference computes, as one function of its two arguments' contents, in stages.

  Flat position `n = b · 1000 + c` of the long arrays stands for the pair (row `b`, class `c`):
  `clsIdx` holds `c` there (an iota over the classes, tiled down the batch, flattened), `xRep x` holds row
  `b` of `x` there, and `emb ce i` holds the class-table row the index vector `i` selects: the index is
  wrapped if negative, the row fetched by a gather that clamps the index into the table, and the row is
  replaced by a not-a-number splat wherever the wrapped index falls outside the table. `score` is the
  pointwise term `-½ · ((L + 2·s) + (x - μ)² · exp (-2·s))` summed over the 64 features, and `out` lays the
  1 024 000 sums out as the 1024 × 1000 result.
-/
import proofs.«180006_g45595372814773_cont_8to1_c_604_6_alg».proof.Proof.Gen.ReferenceIdeal

noncomputable section

namespace Cert.ReferenceIdeal.RefTerm

open Cert.ReferenceIdeal Cert.ReferenceIdeal.Gen Idealize.ShloMosaic

variable {F : FTy → Type} [FloatOps F]

/-- The class index at every flat position. -/
def clsIdx : IVec S1024000 32 :=
  shapeCast S1024000
    (broadcastInDim S1024x1000 ![0, 1] bcast_S1x1000_S1024x1000_0_1
      (shapeCast S1x1000 (iotaInDim S1000 32 0) shapeCasts_S1000_S1x1000))
    shapeCasts_S1024x1000_S1024000

/-- The batch row at every flat position. -/
def xRep (x : FVec F S1024x64 .f32) : FVec F S1024000x64 .f32 :=
  shapeCast S1024000x64
    (shapeCast S1024x1000x64
      (broadcastInDim S1024x1x1000x64 ![0, 1, 3] bcast_S1024x1x64_S1024x1x1000x64_0_1_3
        (broadcastInDim S1024x1x64 ![0, 2] bcast_S1024x64_S1024x1x64_0_2 x))
      shapeCasts_S1024x1x1000x64_S1024x1000x64)
    shapeCasts_S1024x1000x64_S1024000x64

/-- A negative index counts from the table's end. -/
def wrapIdx (i : IVec S1024000 32) : IVec S1024000 32 :=
  select (cmpi .slt i (broadcastInDim S1024000 ![] bcast_S_S1024000 (constantI S_ 32 0#32)))
    (addi i (broadcastInDim S1024000 ![] bcast_S_S1024000 (constantI S_ 32 1000#32))) i

/-- The wrapped indices as a column of start positions. -/
def idxCol (i : IVec S1024000 32) : IVec S1024000x1 32 :=
  broadcastInDim S1024000x1 ![0] bcast_S1024000_S1024000x1_0 (wrapIdx i)

/-- Whether the wrapped index lies in the table, `0 ≤ · ≤ 999`. -/
def inRange (i : IVec S1024000 32) : IVec S1024000 1 :=
  Host.reduce IntOp.andi
    (andi (cmpi .sge (idxCol i) (broadcastInDim S1024000x1 ![] bcast_S_S1024000x1 (constantI S_ 32 0#32)))
      (cmpi .sle (idxCol i)
        (broadcastInDim S1024000x1 ![0, 1] bcast_S1x1_S1024000x1_0_1
          (broadcastInDim S1x1 ![1] bcast_S1_S1x1_1 (constantI S1 32 999#32)))))
    (constantI S_ 1 1#1) reducesTo_S1024000x1_S1024000_d1 h_S_

/-- The class rows the indices select; a not-a-number row where the index is out of the table. -/
def emb (ce : FVec F S1000x128 .f32) (i : IVec S1024000 32) : FVec F S1024000x128 .f32 :=
  select (broadcastInDim S1024000x128 ![0] bcast_S1024000_S1024000x128_0 (inRange i))
    (Host.gather gather_S1000x128_S1024000x1_S1024000x128_1_0_n_n_0_1_1128 ce (idxCol i))
    (broadcastInDim S1024000x128 ![] bcast_S_S1024000x128 (constant S_ .f32 0x7FC00000#32))

/-- The mean half of the selected rows. -/
def meanOf (e : FVec F S1024000x128 .f32) : FVec F S1024000x64 .f32 :=
  extractStridedSlice S1024000x64 ![0, 0] e slices_S1024000x128_S1024000x64_0_0

/-- The log-standard-deviation half of the selected rows. -/
def lsigOf (e : FVec F S1024000x128 .f32) : FVec F S1024000x64 .f32 :=
  extractStridedSlice S1024000x64 ![0, 64] e slices_S1024000x128_S1024000x64_0_64

/-- The pointwise term, per flat position and feature. -/
def term (xr : FVec F S1024000x64 .f32) (e : FVec F S1024000x128 .f32) : FVec F S1024000x64 .f32 :=
  mulf (broadcastInDim S1024000x64 ![] bcast_S_S1024000x64 (constant S_ .f32 0xBF000000#32))
    (addf
      (addf (broadcastInDim S1024000x64 ![] bcast_S_S1024000x64 (constant S_ .f32 0x3FEB3F8E#32))
        (mulf (broadcastInDim S1024000x64 ![] bcast_S_S1024000x64 (constant S_ .f32 0x40000000#32)) (lsigOf e)))
      (mulf (mulf (subf xr (meanOf e)) (subf xr (meanOf e)))
        (Host.exp (mulf (broadcastInDim S1024000x64 ![] bcast_S_S1024000x64 (constant S_ .f32 0xC0000000#32)) (lsigOf e)))))

/-- Its sum over the features, from zero. -/
def score (xr : FVec F S1024000x64 .f32) (e : FVec F S1024000x128 .f32) : FVec F S1024000 .f32 :=
  Host.reduceAdd (term xr e) (constant S_ .f32 0x00000000#32) reducesTo_S1024000x64_S1024000_d1 h_S_

/-- The reference's result from its arguments' contents. -/
def out (x : FVec F S1024x64 .f32) (ce : FVec F S1000x128 .f32) : FVec F S1024x1000 .f32 :=
  shapeCast S1024x1000 (score (xRep x) (emb ce clsIdx)) shapeCasts_S1024000_S1024x1000

end Cert.ReferenceIdeal.RefTerm

end
-- ==== Proof.RefTermRun.lean ====
/-
  The fold of the reference's 53 operations, read at its result buffer, is the staged term `RefTerm.out` of
  the two arguments' contents; read at an argument's buffer it is that argument unchanged.

  The list is the concatenation of three stretches, and the fold of a concatenation is the fold of the second
  part from the fold of the first. Each stretch is read from an ARBITRARY starting valuation, so that what the
  stretches before it computed enters as a plain value and is never expanded again: the first stretch leaves
  the class indices and the repeated batch rows, the second (the take) the selected class rows as a function
  of the class table and the index vector it finds, the third the result as a function of the repeated rows
  and the selected rows it finds. Within a stretch every operation's result is its function of the buffers
  it reads where the buffer is the one it writes and what the buffer held otherwise; the typed references of
  the outlined functions carry their contents to the buffer's own type and back, which cancels (`ofBuf_toBuf`).
-/
import proofs.«180006_g45595372814773_cont_8to1_c_604_6_alg».proof.Proof.RefOps
import proofs.«180006_g45595372814773_cont_8to1_c_604_6_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The fold of a concatenation is the fold of its second part from the fold of its first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- Contents carried to a typed reference's buffer and back are the contents: the two transports run along one
    equation of types, in opposite directions. -/
theorem ofBuf_toBuf {T : BufTy} (x : TRef sig T) (v : T.Contents (Elt F)) : x.ofBuf (x.toBuf v) = v := by
  obtain ⟨r, rfl, h2, h3⟩ := x
  rfl

/-- The program is its three stretches in order. -/
theorem ops_split : (ops : List (HloOp τ sig (Elt F))) = opsLayout ++ (opsTake ++ opsScore) := rfl

/-! ## The first stretch: the pairs laid out -/

attribute [local irreducible] Host.reduce Host.reduceAdd Host.gather Host.exp shapeCast broadcastInDim extractStridedSlice iotaInDim in
set_option maxRecDepth 8192 in
theorem layout_idx (V : Valuation τ sig (Elt F)) :
    after opsLayout V (main_v3 : DevRef τ sig) = RefTerm.clsIdx := by
  after_results_simp
  rfl

attribute [local irreducible] Host.reduce Host.reduceAdd Host.gather Host.exp shapeCast broadcastInDim extractStridedSlice iotaInDim in
set_option maxRecDepth 8192 in
theorem layout_rows (V : Valuation τ sig (Elt F)) :
    after opsLayout V (main_v7 : DevRef τ sig) = RefTerm.xRep (V (main_arg0 : DevRef τ sig)) := by
  after_results_simp
  rfl

theorem layout_table (V : Valuation τ sig (Elt F)) :
    after opsLayout V (main_arg1 : DevRef τ sig) = V (main_arg1 : DevRef τ sig) := by
  after_results_simp

/-! ## The second stretch: the take -/

attribute [local irreducible] Host.reduce Host.reduceAdd Host.gather Host.exp shapeCast broadcastInDim extractStridedSlice iotaInDim in
set_option maxRecDepth 8192 in
theorem take_rows (W : Valuation τ sig (Elt F)) :
    after opsTake W (main_v8 : DevRef τ sig)
      = RefTerm.emb (W (main_arg1 : DevRef τ sig)) (W (main_v3 : DevRef τ sig)) := by
  after_results_simp
  simp only [ofBuf_toBuf]
  rfl

theorem take_keeps (W : Valuation τ sig (Elt F)) :
    after opsTake W (main_v7 : DevRef τ sig) = W (main_v7 : DevRef τ sig) := by
  after_results_simp

/-! ## The third stretch: the score -/

attribute [local irreducible] Host.reduce Host.reduceAdd Host.gather Host.exp shapeCast broadcastInDim extractStridedSlice iotaInDim in
set_option maxRecDepth 8192 in
theorem score_out (W : Valuation τ sig (Elt F)) :
    after opsScore W (main_v25 : DevRef τ sig)
      = shapeCast S1024x1000 (RefTerm.score (W (main_v7 : DevRef τ sig)) (W (main_v8 : DevRef τ sig)))
          shapeCasts_S1024000_S1024x1000 := by
  after_results_simp
  rfl

/-! ## The whole run -/

attribute [local irreducible] Host.reduce Host.reduceAdd Host.gather Host.exp shapeCast broadcastInDim extractStridedSlice iotaInDim in
set_option maxRecDepth 8192 in
/-- The result buffer after the run holds the staged term of the arguments. -/
theorem out_eq (V : Valuation τ sig (Elt F)) :
    after ops V (main_v25 : DevRef τ sig)
      = RefTerm.out (V (main_arg0 : DevRef τ sig)) (V (main_arg1 : DevRef τ sig)) := by
  rw [ops_split, after_append, after_append, score_out, take_keeps, take_rows, layout_rows, layout_idx, layout_table]
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

end Cert.ReferenceIdeal.RefRun

end
-- ==== Proof.LibGatherRows.lean ====
/-
  Taking rows of a matrix by a column of start positions, read at an index.
-/
import Idealize.ShloMosaic.PureOps.Ideal
import Idealize.ShloMosaic.Lib.ValueIdx

noncomputable section

namespace Cert.GaussMix.Lib

open Idealize.ShloMosaic Idealize.ShloMosaic.ValueIdx

/-- The dimension numbers of the row-taking gather: operand [N × D], start positions [M × 1], result [M × D]; result
    axis 1 is the offset axis, operand axis 0 is collapsed and is the one the start index names, the index vector lies
    along start-indices axis 1, and the window is one whole row. -/
private abbrev rowsDims (N D M : ℕ)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- TAKING ROWS. The gather that reads an [N × D] matrix at a column of M start positions (start indices
    [M × 1], the row axis collapsed, whole rows of width D as the window) gives an [M × D] matrix whose
    entry (n, k) is the operand's entry (r, k), where r is start position n read as a signed integer and
    clamped into [0, N − 1] (the gather clamps every start index so that its window stays inside the operand).
    Generic in the sizes; the dimension numbers are given as equations so that a program's literal record
    discharges each by computation. -/
theorem gather_rows_apply {α : Type} {N D M w : ℕ} (hN : 0 < N)
    (d : GatherDims ⟨2, ![N, D]⟩ ⟨2, ![M, 1]⟩ ⟨2, ![M, D]⟩)
    (hoff : d.offsetDims = [1]) (hcol : d.collapsedSliceDims = [0]) (hob : d.operandBatchingDims = [])
    (hsb : d.startIndicesBatchingDims = []) (hmap : d.startIndexMap = [0]) (hivd : d.indexVectorDim = 1)
    (hss : d.sliceSizes = ![1, D])
    (x : (⟨2, ![N, D]⟩ : Shape).Idx → α) (idx : IVec ⟨2, ![M, 1]⟩ w) (n : Fin M) (k : Fin D) :
    Host.gather d x idx (ix2 n k)
      = x (ix2 ⟨min (idx (ix2 n ⟨0, Nat.one_pos⟩)).toInt.toNat (N - 1), by omega⟩ k) := by
  obtain ⟨off, col, ob, sb, map, ivd, ss, wf⟩ := d
  simp only at hoff hcol hob hsb hmap hivd hss
  subst hoff hcol hob hsb hmap hivd hss
  show Host.gather (rowsDims N D M wf) x idx (ix2 n k) = _
  unfold Host.gather
  congr 1
  funext a
  refine Fin.ext ?_
  match a with
  | ⟨0, _⟩ =>
    -- the row axis: collapsed and not a batching axis, so the batching and the offset coordinates vanish and the
    -- clamped start position remains; the clamp bound is the extent N less the window's height 1
    show (rowsDims N D M wf).start (ix2 n k) idx 0 + (rowsDims N D M wf).batchCoord (ix2 n k) 0
      + (rowsDims N D M wf).offCoord (ix2 n k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D M wf).startIndexMap from List.mem_singleton.mpr rfl)]
    have hsi : (rowsDims N D M wf).siIdx (ix2 n k) ⟨List.idxOf (0 : Fin 2) (rowsDims N D M wf).startIndexMap,
        List.idxOf_lt_length_iff.2 (List.mem_singleton.mpr rfl)⟩ = ix2 n ⟨0, Nat.one_pos⟩ := by
      funext b; refine Fin.ext ?_
      match b with
      | ⟨0, _⟩ => rfl
      | ⟨1, _⟩ => rfl
    rw [hsi]
    rfl
  | ⟨1, _⟩ =>
    -- the column axis: the start index does not name it and it is not a batching axis, so the start and the
    -- batching coordinate vanish and the result's own column coordinate k remains
    show (rowsDims N D M wf).start (ix2 n k) idx 1 + (rowsDims N D M wf).batchCoord (ix2 n k) 1
      + (rowsDims N D M wf).offCoord (ix2 n k) 1 = _
    rw [GatherDims.batchCoord_eq_zero _ _ _ List.not_mem_nil]
    unfold GatherDims.start
    rw [dif_neg (show (1 : Fin 2) ∉ (rowsDims N D M wf).startIndexMap from
      fun h => absurd (List.mem_singleton.mp h) (show ¬ (1 : Fin 2) = 0 by decide))]
    simp only [Nat.add_zero, Nat.zero_add]
    rfl

end Cert.GaussMix.Lib

end
-- ==== Proof.RefValue.lean ====
/-
  The reference's staged term, read at the pair (row b, class c) at the ideal values, is the specification's
  `refVal`: flat position b · 1000 + c carries class index c, which is never negative and lies in the
  table, so the wrap and the clamp leave it alone and the out-of-range mask keeps the gathered row; the row's
  two halves are the class's means and log standard deviations, the repeated batch row is row b, and the sum
  over the features starts from the zero word.
-/
import proofs.«180006_g45595372814773_cont_8to1_c_604_6_alg».proof.Proof.RefTerm
import proofs.«180006_g45595372814773_cont_8to1_c_604_6_alg».proof.Proof.Spec
import proofs.«180006_g45595372814773_cont_8to1_c_604_6_alg».proof.Proof.LibGatherRows
import Idealize.ShloMosaic.Lib.ValueIdx
import Idealize.ShloMosaic.Lib.Pipeline.Value
import Idealize.ShloMosaic.PureOps.Ideal.Laws
import Idealize.ShloMosaic.Lib.IdealHost
import Idealize.ShloMosaic.Lib.StableHlo.Predicate

noncomputable section

namespace Cert.ReferenceIdeal.RefValue

open Cert.ReferenceIdeal Cert.ReferenceIdeal.Gen Idealize.ShloMosaic Idealize.ShloMosaic.ValueIdx

/-- The flat position of the pair (row b, class c). -/
private def flat (b : Fin 1024) (c : Fin 1000) : Fin 1024000 := ⟨b.val * 1000 + c.val, by omega⟩

/-- The result laid out as 1024 × 1000 reads the long array at the flat position. -/
private theorem out_read {α : Type} (v : S1024000.Idx → α) (b : Fin 1024) (c : Fin 1000) :
    shapeCast S1024x1000 v shapeCasts_S1024000_S1024x1000 (ix2 b c) = v (ix1 (flat b c)) := by
  refine shapeCast_apply v _ (ix2 b c) (ix1 (flat b c)) ?_
  rw [Shape.rowMajor_val_one, Shape.rowMajor_val_two]
  rfl

private theorem reduces64 : S1024000x64.Reduces [1] S1024000 := by decide

/-- The sum over the features, from the zero word, at a flat position. -/
private theorem score_read (t : FVec Ideal S1024000x64 .f32) (n : Fin 1024000) :
    Host.reduceAdd t (constant (F := Ideal) S_ .f32 0x00000000#32) reducesTo_S1024000x64_S1024000_d1 h_S_ (ix1 n)
      = ∑ d : Fin 64, t (ix2 n d) := by
  rw [hostReduceAdd_apply, Ideal.hostReduceAdd_single _ reduces64, constant_apply, Ideal.ofBits_zero_f32, zero_add]
  refine Finset.sum_congr rfl fun d _ => congrArg t ?_
  funext a
  match a with
  | ⟨0, _⟩ => rfl
  | ⟨1, _⟩ => rfl

open Cert.GaussMix in
/-- The mean half of a row, at a flat position and a feature. -/
private theorem meanOf_read (e : FVec Ideal S1024000x128 .f32) (n : Fin 1024000) (d : Fin 64) :
    RefTerm.meanOf (F := Ideal) e (ix2 n d) = e (ix2 n (colM d)) := by
  unfold RefTerm.meanOf
  refine extractStridedSlice_apply _ e _ (ix2 n d) (ix2 n (colM d)) fun a => ?_
  match a with
  | ⟨0, _⟩ => show n.val = 0 + n.val; omega
  | ⟨1, _⟩ => show d.val = 0 + d.val; omega

open Cert.GaussMix in
/-- The log-standard-deviation half of a row, at a flat position and a feature. -/
private theorem lsigOf_read (e : FVec Ideal S1024000x128 .f32) (n : Fin 1024000) (d : Fin 64) :
    RefTerm.lsigOf (F := Ideal) e (ix2 n d) = e (ix2 n (colS d)) := by
  unfold RefTerm.lsigOf
  refine extractStridedSlice_apply _ e _ (ix2 n d) (ix2 n (colS d)) fun a => ?_
  match a with
  | ⟨0, _⟩ => show n.val = 0 + n.val; omega
  | ⟨1, _⟩ => show 64 + d.val = 64 + d.val; rfl

/-- A float word splat over any shape reads the extended real the word denotes. -/
private theorem splat_read {T : Shape} (h : S_.BroadcastsInDim T ![]) (w : BitVec 32) (j : T.Idx) :
    broadcastInDim T ![] h (constant (F := Ideal) S_ .f32 w) j = Ideal.ofBits .f32 w :=
  broadcastInDim_scalar_apply h _ j

/-- The host exponential is the extended reals' exponential, element by element. -/
private theorem hostExp_read {s : Shape} (v : FVec Ideal s .f32) (i : s.Idx) : Host.exp v i = Ideal.exp (v i) := rfl

open Cert.GaussMix in
/-- The pointwise term at a flat position and a feature. -/
private theorem term_read (xr : FVec Ideal S1024000x64 .f32) (e : FVec Ideal S1024000x128 .f32) (n : Fin 1024000)
    (d : Fin 64) :
    RefTerm.term (F := Ideal) xr e (ix2 n d)
      = cNegHalf * ((cL + cTwo * e (ix2 n (colS d)))
          + ((xr (ix2 n d) - e (ix2 n (colM d))) * (xr (ix2 n d) - e (ix2 n (colM d))))
            * Ideal.exp (cNeg2 * e (ix2 n (colS d)))) := by
  unfold RefTerm.term
  simp only [mulf_apply, addf_apply, subf_apply, hostExp_read, meanOf_read, lsigOf_read]
  rw [splat_read, splat_read, splat_read, splat_read]

/-- The repeated batch: flat position b · 1000 + c holds row b. -/
private theorem xRep_read (x : FVec Ideal S1024x64 .f32) (b : Fin 1024) (c : Fin 1000) (d : Fin 64) :
    RefTerm.xRep (F := Ideal) x (ix2 (flat b c) d) = x (ix2 b d) := by
  unfold RefTerm.xRep
  refine (shapeCast_apply _ _ (ix2 (flat b c) d) (ix3 b c d) ?_).trans ?_
  · rw [Shape.rowMajor_val_three, Shape.rowMajor_val_two]; rfl
  refine (shapeCast_apply _ _ (ix3 b c d) (ix4 b (0 : Fin 1) c d) ?_).trans ?_
  · rw [Shape.rowMajor_val_four, Shape.rowMajor_val_three]
    show ((b.val * 1 + 0) * 1000 + c.val) * 64 + d.val = (b.val * 1000 + c.val) * 64 + d.val
    omega
  refine (broadcastInDim_apply _ _ _ (ix4 b (0 : Fin 1) c d) (ix3 b (0 : Fin 1) d) fun a => ?_).trans ?_
  · match a with
    | ⟨0, _⟩ => rfl
    | ⟨1, _⟩ => rfl
    | ⟨2, _⟩ => rfl
  refine broadcastInDim_apply _ _ _ (ix3 b (0 : Fin 1) d) (ix2 b d) fun a => ?_
  match a with
  | ⟨0, _⟩ => rfl
  | ⟨1, _⟩ => rfl

/-- The class index at flat position b · 1000 + c is c. -/
private theorem clsIdx_read (b : Fin 1024) (c : Fin 1000) :
    RefTerm.clsIdx (ix1 (flat b c)) = BitVec.ofNat 32 c.val := by
  unfold RefTerm.clsIdx
  refine (shapeCast_apply _ _ (ix1 (flat b c)) (ix2 b c) ?_).trans ?_
  · rw [Shape.rowMajor_val_one, Shape.rowMajor_val_two]; rfl
  refine (broadcastInDim_apply _ _ _ (ix2 b c) (ix2 (0 : Fin 1) c) fun a => ?_).trans ?_
  · match a with
    | ⟨0, _⟩ => rfl
    | ⟨1, _⟩ => rfl
  refine (shapeCast_apply _ _ (ix2 (0 : Fin 1) c) (ix1 c) ?_).trans ?_
  · rw [Shape.rowMajor_val_one, Shape.rowMajor_val_two]
    show c.val = 0 * 1000 + c.val
    omega
  rfl

/-- A class index, read as a word, is below 2³¹. -/
private theorem ofNat_toNat_lt (c : ℕ) (hc : c < 1000) : (BitVec.ofNat 32 c).toNat < 2 ^ 31 := by
  rw [BitVec.toNat_ofNat]; omega

/-- A class index is not negative, so the wrap leaves it alone. -/
private theorem wrapIdx_read (i : IVec S1024000 32) (n : Fin 1024000) (c : ℕ) (hc : c < 1000)
    (hi : i (ix1 n) = BitVec.ofNat 32 c) : RefTerm.wrapIdx i (ix1 n) = BitVec.ofNat 32 c := by
  unfold RefTerm.wrapIdx
  rw [select_apply]
  have h0 : cmpi .slt i (broadcastInDim S1024000 ![] bcast_S_S1024000 (constantI S_ 32 0#32)) (ix1 n) = 0#1 := by
    show IntOp.cmpi .slt (i (ix1 n)) 0#32 = 0#1
    rw [hi]
    refine eq_zero_of_ne_one fun h => ?_
    exact Nat.not_lt_zero _ ((StableHlo.Predicate.slt_iff_toNat (ofNat_toNat_lt c hc) (by decide)).1 h)
  rw [h0, select_zero, hi]

/-- The column of start positions holds the wrapped index. -/
private theorem idxCol_read (i : IVec S1024000 32) (n : Fin 1024000) :
    RefTerm.idxCol i (ix2 n (0 : Fin 1)) = RefTerm.wrapIdx i (ix1 n) := by
  unfold RefTerm.idxCol
  refine broadcastInDim_apply _ _ _ (ix2 n (0 : Fin 1)) (ix1 n) fun a => ?_
  match a with
  | ⟨0, _⟩ => rfl

/-- At a class index both range tests hold: 0 ≤ c and c ≤ 999. -/
private theorem tests_read (i : IVec S1024000 32) (n : Fin 1024000) (c : ℕ) (hc : c < 1000)
    (hi : i (ix1 n) = BitVec.ofNat 32 c) (j : S1024000x1.Idx) (hj : j = ix2 n (0 : Fin 1)) :
    andi (cmpi .sge (RefTerm.idxCol i) (broadcastInDim S1024000x1 ![] bcast_S_S1024000x1 (constantI S_ 32 0#32)))
      (cmpi .sle (RefTerm.idxCol i)
        (broadcastInDim S1024000x1 ![0, 1] bcast_S1x1_S1024000x1_0_1
          (broadcastInDim S1x1 ![1] bcast_S1_S1x1_1 (constantI S1 32 999#32)))) j = 1#1 := by
  subst hj
  have hw : RefTerm.idxCol i (ix2 n (0 : Fin 1)) = BitVec.ofNat 32 c :=
    (idxCol_read i n).trans (wrapIdx_read i n c hc hi)
  have hlt := ofNat_toNat_lt c hc
  have hge : IntOp.cmpi .sge (BitVec.ofNat 32 c) 0#32 = 1#1 :=
    (StableHlo.Predicate.sge_iff_toNat hlt (by decide)).2 (Nat.zero_le _)
  have hle : IntOp.cmpi .sle (BitVec.ofNat 32 c) 999#32 = 1#1 :=
    (StableHlo.Predicate.sle_iff_toNat hlt (by decide)).2 (by
      rw [BitVec.toNat_ofNat]; show c % 2 ^ 32 ≤ 999; omega)
  show IntOp.andi (IntOp.cmpi .sge (RefTerm.idxCol i (ix2 n (0 : Fin 1))) 0#32)
    (IntOp.cmpi .sle (RefTerm.idxCol i (ix2 n (0 : Fin 1))) 999#32) = 1#1
  rw [hw, hge, hle]
  rfl

/-- A fold over a one-element range is one application. -/
private theorem fold_one {α : Type} (op : α → α → α) [Std.Commutative op] [Std.Associative op] (b : α) (f : Fin 1 → α) :
    (Finset.univ : Finset (Fin 1)).fold op b f = op (f 0) b := by
  rw [Finset.univ_unique, Finset.fold_singleton]; rfl

private theorem reduces1 : S1024000x1.Reduces [1] S1024000 := by decide

/-- A class index lies in the table, so the mask is set. -/
private theorem inRange_read (i : IVec S1024000 32) (n : Fin 1024000) (c : ℕ) (hc : c < 1000)
    (hi : i (ix1 n) = BitVec.ofNat 32 c) : RefTerm.inRange i (ix1 n) = 1#1 := by
  have hl : reduces1.lift (ix1 n) (0 : Fin 1) = ix2 n (0 : Fin 1) := by
    funext a
    match a with
    | ⟨0, _⟩ => rfl
    | ⟨1, _⟩ => rfl
  unfold RefTerm.inRange
  rw [Host.reduce_eq_fold_single IntOp.andi _ _ _ reduces1]
  refine (fold_one IntOp.andi _ _).trans ?_
  exact (congrArg (fun z => IntOp.andi z 1#1) (tests_read i n c hc hi _ hl)).trans rfl

/-- The selected class row at flat position b · 1000 + c is row c of the table. -/
private theorem emb_read (ce : FVec Ideal S1000x128 .f32) (b : Fin 1024) (c : Fin 1000) (k : Fin 128) :
    RefTerm.emb (F := Ideal) ce RefTerm.clsIdx (ix2 (flat b c) k) = ce (ix2 c k) := by
  have hi := clsIdx_read b c
  unfold RefTerm.emb
  rw [select_apply]
  have hm : broadcastInDim S1024000x128 ![0] bcast_S1024000_S1024000x128_0 (RefTerm.inRange RefTerm.clsIdx)
      (ix2 (flat b c) k) = 1#1 := by
    refine (broadcastInDim_apply _ _ _ (ix2 (flat b c) k) (ix1 (flat b c)) fun a => ?_).trans
      (inRange_read _ _ c.val c.isLt hi)
    match a with
    | ⟨0, _⟩ => rfl
  rw [hm, select_one]
  refine (Cert.GaussMix.Lib.gather_rows_apply (by decide) _ rfl rfl rfl rfl rfl rfl rfl ce _ (flat b c) k).trans ?_
  refine congrArg ce (congrArg (fun r => ix2 r k) (Fin.ext ?_))
  show min (RefTerm.idxCol RefTerm.clsIdx (ix2 (flat b c) (0 : Fin 1))).toInt.toNat (1000 - 1) = c.val
  have hc := c.isLt
  rw [idxCol_read, wrapIdx_read _ _ c.val hc hi, StableHlo.Predicate.toInt_ofNat_small _ (by omega), Int.toNat_natCast]
  omega

/-- The reference's result array is `refArr` of its arguments. -/
theorem out_apply (x : FVec Ideal S1024x64 .f32) (ce : FVec Ideal S1000x128 .f32) :
    RefTerm.out (F := Ideal) x ce = Cert.GaussMix.refArr x ce := by
  funext j
  obtain ⟨b, c, rfl⟩ : ∃ (b : Fin 1024) (c : Fin 1000), j = ix2 b c := ⟨j 0, j 1, eq_ix2 j⟩
  unfold RefTerm.out RefTerm.score
  rw [out_read, score_read]
  show _ = Cert.GaussMix.refVal x ce b c
  unfold Cert.GaussMix.refVal
  refine Finset.sum_congr rfl fun d _ => ?_
  rw [term_read, xRep_read, emb_read, emb_read]
  rfl

end Cert.ReferenceIdeal.RefValue

end
-- ==== Proof.Algebra.lean ====
/-
  The law that joins the two sides. For finite inputs every quantity is a real number, and expanding
  (x - μ)² · w = x²·w - 2·x·μ·w + μ²·w inside the reference's sum, with K = 64 · L for the 64 copies of the
  constant, gives the kernel's four terms. The float words are read once here as the reals they denote.
-/
import proofs.«180006_g45595372814773_cont_8to1_c_604_6_alg».proof.Proof.Spec

noncomputable section

namespace Cert.GaussMix

open Idealize.ShloMosaic Idealize.ShloMosaic.ValueIdx

/-- The real that the word for `log 2π` denotes: sign 0, exponent field 127, fraction 7028622, so
    `(2^23 + 7028622) · 2^(-23)`. -/
private def ell : ℝ := 15417230 / 8388608

/-- The word `0xC0000000` denotes `-2`. -/
private theorem cNeg2_eq : cNeg2 = ((-2 : ℝ) : EReal) := by
  simp [Ideal.ofBits, Ideal.ieee, -EReal.coe_mul]; norm_num

/-- The word `0x40000000` denotes `2`. -/
private theorem cTwo_eq : cTwo = ((2 : ℝ) : EReal) := by
  simp [Ideal.ofBits, Ideal.ieee, -EReal.coe_mul]; norm_num

/-- The word `0xBF000000` denotes `-½`. -/
private theorem cNegHalf_eq : cNegHalf = ((-(1 / 2) : ℝ) : EReal) := by
  simp [Ideal.ofBits, Ideal.ieee, -EReal.coe_mul]; norm_num

/-- The word `0x3F800000` denotes `1`. -/
private theorem cOne_eq : cOne = ((1 : ℝ) : EReal) := by
  simp [Ideal.ofBits, Ideal.ieee, -EReal.coe_mul]; norm_num

/-- The word `0x3FEB3F8E` denotes `ℓ`. -/
private theorem cL_eq : cL = ((ell : ℝ) : EReal) := by
  simp [Ideal.ofBits, Ideal.ieee, ell, -EReal.coe_mul]; norm_num

/-- The word `0x42EB3F8E` has the same fraction and an exponent field six higher: it denotes `64 · ℓ`. -/
private theorem cK_eq : cK = ((64 * ell : ℝ) : EReal) := by
  simp [Ideal.ofBits, Ideal.ieee, ell, -EReal.coe_mul]; norm_num

/-- A finite sum of reals, read in the extended reals, is the real sum. -/
private theorem coe_sum64 (f : Fin 64 → ℝ) :
    (∑ d : Fin 64, ((f d : ℝ) : EReal)) = ((∑ d : Fin 64, f d : ℝ) : EReal) := by
  induction (Finset.univ : Finset (Fin 64)) using Finset.induction_on with
  | empty => simp
  | insert a t ha ih => rw [Finset.sum_insert ha, Finset.sum_insert ha, ih, EReal.coe_add]

/-- The identity over the reals: with `w d = exp (-2 · s d)`, the four terms of the kernel's row sum to the
    reference's sum of `-½ · ((ℓ + 2 s) + (x - μ)² w)`, the class constant carrying `64 · ℓ`. -/
private theorem real_law (xr μ s : Fin 64 → ℝ) (l : ℝ) :
    ((((∑ d : Fin 64, (xr d * xr d) * (-(1 / 2) * (Real.exp (-2 * s d) - 1)))
        + (∑ d : Fin 64, xr d * (μ d * Real.exp (-2 * s d))))
        + -(1 / 2) * (∑ d : Fin 64, xr d * xr d))
        + -(1 / 2) * ((64 * l + 2 * ∑ d : Fin 64, s d) + ∑ d : Fin 64, μ d * (μ d * Real.exp (-2 * s d))))
      = ∑ d : Fin 64, -(1 / 2) * ((l + 2 * s d)
          + ((xr d - μ d) * (xr d - μ d)) * Real.exp (-2 * s d)) := by
  have h64 : (64 : ℝ) * l = ∑ _d : Fin 64, l := by
    simp [Finset.sum_const, Finset.card_univ]
  rw [h64]
  simp only [Finset.mul_sum, ← Finset.sum_add_distrib]
  refine Finset.sum_congr rfl fun d _ => ?_
  ring

/-- On finite inputs the kernel's score is the reference's. -/
theorem ker_eq_ref (x : SX.Idx → EReal) (ce : SE.Idx → EReal)
    (hx : ∀ i, ∃ r : ℝ, x i = (r : EReal)) (hce : ∀ i, ∃ r : ℝ, ce i = (r : EReal))
    (b : Fin 1024) (c : Fin 1000) : kerVal x ce b c = refVal x ce b c := by
  have hxr : ∀ d : Fin 64, ∃ r : ℝ, x (ix2 b d) = (r : EReal) := fun d => hx _
  choose xr hxr using hxr
  have hμ : ∀ d : Fin 64, ∃ r : ℝ, ce (ix2 c (colM d)) = (r : EReal) := fun d => hce _
  choose μ hμ using hμ
  have hs : ∀ d : Fin 64, ∃ r : ℝ, ce (ix2 c (colS d)) = (r : EReal) := fun d => hce _
  choose s hs using hs
  simp only [kerVal, refVal, rowVal, tabA, tabB, tabC, prec, mean, lsig, hxr, hμ, hs,
    cNeg2_eq, cTwo_eq, cNegHalf_eq, cOne_eq, cL_eq, cK_eq,
    ← EReal.coe_mul, ← EReal.coe_add, ← EReal.coe_sub, Ideal.exp_coe, coe_sum64]
  exact congrArg _ (real_law xr μ s ell)

/-- So the two result arrays are one. -/
theorem kerArr_eq_refArr (x : SX.Idx → EReal) (ce : SE.Idx → EReal)
    (hx : ∀ i, ∃ r : ℝ, x i = (r : EReal)) (hce : ∀ i, ∃ r : ℝ, ce i = (r : EReal)) :
    kerArr x ce = refArr x ce :=
  funext fun j => ker_eq_ref x ce hx hce _ _

end Cert.GaussMix

end
-- ==== Proof.Finite.lean ====
/-
  What the precondition says: both inputs are compared, entry by entry, in absolute value against +∞, and
  the comparisons are and-ed over each whole array; the result is all ones exactly when every entry of
  both arrays is a real number.
-/
import proofs.«180006_g45595372814773_cont_8to1_c_604_6_alg».proof.Pre_finite_inputs
import Idealize.ShloMosaic.PureOps.Ideal
import Idealize.ShloMosaic.Lib.ReduceAll

noncomputable section

namespace Cert.GaussMix

open Idealize.ShloMosaic

/-- The single-precision pattern with all exponent bits set and a zero fraction denotes +∞. -/
private theorem inf_pattern : Ideal.ofBits .f32 0x7F800000#32 = (⊤ : EReal) := by
  simp [Ideal.ofBits, Ideal.ieee]

/-- An extended real whose absolute value max(a, −a) lies strictly below +∞ is a real number: both −∞ and +∞
    have absolute value +∞, which is not below itself. -/
private theorem real_of_abs_lt_inf (a : EReal)
    (h : Ideal.cmp .olt (max a (-a)) (Ideal.ofBits .f32 0x7F800000#32) = 1#1) : ∃ r : ℝ, a = (r : EReal) := by
  rw [inf_pattern] at h
  induction a using EReal.rec with
  | bot => simp [Ideal.cmp] at h
  | coe r => exact ⟨r, rfl⟩
  | top => simp [Ideal.cmp] at h

/-- The shape with no axes has exactly one index. -/
private instance : Subsingleton Cert.Pre_finite_inputs.S_.Idx := ⟨fun a b => funext fun d => d.elim0⟩

/-- If the finiteness predicate of the two arrays is all ones, every entry of both is a real number. -/
theorem finite_of_pre [Cert.Pre_finite_inputs.Facts]
    (x : FVec Ideal Cert.Pre_finite_inputs.S1024x64 .f32) (ce : FVec Ideal Cert.Pre_finite_inputs.S1000x128 .f32)
    (h : Cert.Pre_finite_inputs.fn (F := Ideal) x ce = fun _ => 1#1) :
    (∀ i, ∃ r : ℝ, x i = (r : EReal)) ∧ (∀ i, ∃ r : ℝ, ce i = (r : EReal)) := by
  -- The predicate at its one index is the conjunction of the two and-reductions; each being one, every
  -- compared entry is one, that is |entry| < +∞, so the entry is a real number.
  have h0 := congrFun h (fun a => a.elim0)
  dsimp only [Cert.Pre_finite_inputs.fn] at h0
  obtain ⟨hx, hc⟩ := IntOp.andi_eq_one.1 h0
  refine ⟨fun i => ?_, fun i => ?_⟩
  · exact real_of_abs_lt_inf (x i) (Host.reduce_andi_all _ _ _ _ _ hx i)
  · exact real_of_abs_lt_inf (ce i) (Host.reduce_andi_all _ _ _ _ _ hc i)

end Cert.GaussMix

end
-- ==== Proof.lean ====
/-
  The certificate of a class-conditional Gaussian log-likelihood kernel against its jnp reference.

  Both programs score every batch row x[b, ·] (64 features) against every class c (mean μ[c, ·], log standard
  deviation s[c, ·], the two halves of a row of the class table):

      ll[b, c] = Σ_d -½ · ( (log 2π + 2·s[c, d]) + (x[b, d] - μ[c, d])² · exp (-2·s[c, d]) ).

  The reference forms all 1024 × 1000 (row, class) pairs, fetches each pair's class row by a gather, and sums
  the pointwise term. The kernel expands the square: with w = exp (-2·s) it keeps three per-class tables
  A = -½·(w - 1), B = μ·w and C = -½·(64·log 2π + 2·Σ s + Σ μ²·w), computed once at the first of its two grid
  points and carried in scratch memory to the second, and writes x²·A + x·B - ½·Σ x² + C by two matrix
  products. Over the reals the two are equal; the kernel's constant is the word for 64·log 2π whose value is
  exactly sixty-four times the reference's word for log 2π (the same significand, the exponent six higher),
  so no rounding separates them; the expansion needs every entry finite, which the precondition grants.

  The frames of the kernel and of its idealization are the generated ones. The reference's frame and value
  come from its run as a straight line of 53 host operations; the kernel's value from the generated run of
  its two grid points, read block by block.
-/
import proofs.«180006_g45595372814773_cont_8to1_c_604_6_alg».proof.Defs
import proofs.«180006_g45595372814773_cont_8to1_c_604_6_alg».proof.Proof.Gen.Kernel
import proofs.«180006_g45595372814773_cont_8to1_c_604_6_alg».proof.Proof.Gen.Kernel.Skeleton
import proofs.«180006_g45595372814773_cont_8to1_c_604_6_alg».proof.Proof.Gen.Kernel.Launch
import proofs.«180006_g45595372814773_cont_8to1_c_604_6_alg».proof.Proof.Gen.Kernel.Points
import proofs.«180006_g45595372814773_cont_8to1_c_604_6_alg».proof.Proof.Gen.Kernel.Frame
import proofs.«180006_g45595372814773_cont_8to1_c_604_6_alg».proof.Proof.Gen.KernelIdeal
import proofs.«180006_g45595372814773_cont_8to1_c_604_6_alg».proof.Proof.Gen.KernelIdeal.Skeleton
import proofs.«180006_g45595372814773_cont_8to1_c_604_6_alg».proof.Proof.Gen.KernelIdeal.Launch
import proofs.«180006_g45595372814773_cont_8to1_c_604_6_alg».proof.Proof.Gen.KernelIdeal.Points
import proofs.«180006_g45595372814773_cont_8to1_c_604_6_alg».proof.Proof.Gen.KernelIdeal.Frame
import proofs.«180006_g45595372814773_cont_8to1_c_604_6_alg».proof.Proof.Gen.KernelIdeal.Value
import proofs.«180006_g45595372814773_cont_8to1_c_604_6_alg».proof.Proof.Gen.ReferenceIdeal
import proofs.«180006_g45595372814773_cont_8to1_c_604_6_alg».proof.Proof.Gen.Pre_finite_inputs
import proofs.«180006_g45595372814773_cont_8to1_c_604_6_alg».proof.Proof.KernelValue
import proofs.«180006_g45595372814773_cont_8to1_c_604_6_alg».proof.Proof.RefRun
import proofs.«180006_g45595372814773_cont_8to1_c_604_6_alg».proof.Proof.RefTermRun
import proofs.«180006_g45595372814773_cont_8to1_c_604_6_alg».proof.Proof.RefValue
import proofs.«180006_g45595372814773_cont_8to1_c_604_6_alg».proof.Proof.Algebra
import proofs.«180006_g45595372814773_cont_8to1_c_604_6_alg».proof.Proof.Finite
import Idealize.ShloMosaic.Adequacy
import Idealize.ShloMosaic.Init

noncomputable section

namespace Cert.Proof

open Idealize.ShloMosaic Idealize.ShloMosaic.TcCoe Idealize.SL.Sem

/-- The reference's run, read: its result array is the specification's `refArr` of its arguments, which it
    leaves unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v25)
            = Cert.GaussMix.refArr (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1) :=
  (θ_run Cert.ReferenceIdeal.defs _ _).mono
    (fun _ h c => ⟨(h c Cert.ReferenceIdeal.main_v25).trans
        ((Cert.ReferenceIdeal.RefRun.out_eq _).trans (Cert.ReferenceIdeal.RefValue.out_apply _ _)),
      (h c Cert.ReferenceIdeal.main_arg0).trans (Cert.ReferenceIdeal.RefRun.arg0_eq _),
      (h c Cert.ReferenceIdeal.main_arg1).trans (Cert.ReferenceIdeal.RefRun.arg1_eq _)⟩)
    (Cert.ReferenceIdeal.RefRun.run_main (F := Ideal) m ρ)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (ref_run m ρ)

/-- The ideal pass rewrote nothing. -/
theorem preserves : Cert.preserves_Kernel_KernelIdeal := trivial

/-- At the ideal values the kernel's result array ends at `kerArr` of its arguments and the reference's at
    `refArr` of arguments that agree with them; the precondition makes every entry a real number, and on
    real entries the two arrays are one. -/
theorem algebraic : Cert.algebraic_KernelIdeal_ReferenceIdeal := by
  intro m ρ m' ρ' hpre hagree
  refine ⟨fun c => Cert.GaussMix.kerArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩) (ref_run m' ρ')
  rw [(hagree c).1, (hagree c).2]
  obtain ⟨hx, hce⟩ := Cert.GaussMix.finite_of_pre _ _ (hpre c)
  exact (Cert.GaussMix.kerArr_eq_refArr _ _ hx hce).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
